-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S512x2048 : Shape := ⟨2, ![512, 2048]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S256x512 .f32) (main_arg1 : FVec F S512x2048 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  main_v8
-- ==== Kernel.lean ====
abbrev S256x512 : Shape := ⟨2, ![256, 512]⟩
abbrev S512x2048 : Shape := ⟨2, ![512, 2048]⟩
abbrev S256x2048 : Shape := ⟨2, ![256, 2048]⟩
abbrev S256x128x16 : Shape := ⟨3, ![256, 128, 16]⟩
abbrev S256x128 : Shape := ⟨2, ![256, 128]⟩
abbrev S32x128x16 : Shape := ⟨3, ![32, 128, 16]⟩
abbrev S32x128 : Shape := ⟨2, ![32, 128]⟩
abbrev S32x256x128 : Shape := ⟨3, ![32, 256, 128]⟩
abbrev S32x128x1 : Shape := ⟨3, ![32, 128, 1]⟩
abbrev S256x128x1 : Shape := ⟨3, ![256, 128, 1]⟩
abbrev S32x1x128 : Shape := ⟨3, ![32, 1, 128]⟩
abbrev S1x256x128 : Shape := ⟨3, ![1, 256, 128]⟩
abbrev S256x640 : Shape := ⟨2, ![256, 640]⟩

abbrev nBuf : Space → Nat
  | .hbm => 8
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S512x2048, .f32⟩
  | .hbm, ⟨2, _⟩ => ⟨S256x512, .bf16⟩
  | .hbm, ⟨3, _⟩ => ⟨S512x2048, .bf16⟩
  | .hbm, ⟨4, _⟩ => ⟨S256x2048, .f32⟩
  | .hbm, ⟨5, _⟩ => ⟨S256x128x16, .f32⟩
  | .hbm, ⟨6, _⟩ => ⟨S256x128, .f32⟩
  | .hbm, ⟨7, _⟩ => ⟨S256x640, .f32⟩
  | .local _ .vmem, ⟨0, _⟩ => ⟨S256x512, .bf16⟩
  | .local _ .vmem, ⟨1, _⟩ => ⟨S512x2048, .bf16⟩
  | .local _ .vmem, ⟨2, _⟩ => ⟨S256x2048, .f32⟩
  | .local _ .vmem, ⟨3, _⟩ => ⟨S32x128x16, .f32⟩
  | .local _ .vmem, ⟨4, _⟩ => ⟨S32x128x16, .f32⟩
  | .local _ .vmem, ⟨5, _⟩ => ⟨S256x128x16, .f32⟩
  | .local _ .vmem, ⟨6, _⟩ => ⟨S32x128, .f32⟩
  | .local _ .vmem, ⟨7, _⟩ => ⟨S32x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x128x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x128x16 : S256x2048.ShapeCasts S256x128x16
  inb_S32x128x16_S32x128x16_0_0_0 : ∀ a, (![0, 0, 0] : Fin 3 → Nat) a + S32x128x16.size a ≤ S32x128x16.size a
  h_S32x128x16 : 0 < S32x128x16.numel
  shapeCasts_S32x128x16_S32x128x16 : S32x128x16.ShapeCasts S32x128x16
  inb_S256x128x16_S256x128x16_0_0_0 : ∀ a, (![0, 0, 0] : Fin 3 → Nat) a + S256x128x16.size a ≤ S256x128x16.size a
  h_S256x128x16 : 0 < S256x128x16.numel
  shapeCasts_S256x128x16_S256x128x16 : S256x128x16.ShapeCasts S256x128x16
  slices_S32x128x16_o0_0_0_S32x128x1 : S32x128x16.Slices ![0, 0, 0] S32x128x1
  shapeCasts_S32x128x1_S32x128 : S32x128x1.ShapeCasts S32x128
  slices_S256x128x16_o0_0_0_S256x128x1 : S256x128x16.Slices ![0, 0, 0] S256x128x1
  shapeCasts_S256x128x1_S256x128 : S256x128x1.ShapeCasts S256x128
  shapeCasts_S32x128_S32x1x128 : S32x128.ShapeCasts S32x1x128
  shapeCasts_S256x128_S1x256x128 : S256x128.ShapeCasts S1x256x128
  broadcasts_S32x1x128_S32x256x128 : S32x1x128.Broadcasts S32x256x128
  broadcasts_S1x256x128_S32x256x128 : S1x256x128.Broadcasts S32x256x128
  slices_S32x128x16_o0_0_1_S32x128x1 : S32x128x16.Slices ![0, 0, 1] S32x128x1
  slices_S256x128x16_o0_0_1_S256x128x1 : S256x128x16.Slices ![0, 0, 1] S256x128x1
  slices_S32x128x16_o0_0_2_S32x128x1 : S32x128x16.Slices ![0, 0, 2] S32x128x1
  slices_S256x128x16_o0_0_2_S256x128x1 : S256x128x16.Slices ![0, 0, 2] S256x128x1
  slices_S32x128x16_o0_0_3_S32x128x1 : S32x128x16.Slices ![0, 0, 3] S32x128x1
  slices_S256x128x16_o0_0_3_S256x128x1 : S256x128x16.Slices ![0, 0, 3] S256x128x1
  slices_S32x128x16_o0_0_4_S32x128x1 : S32x128x16.Slices ![0, 0, 4] S32x128x1
  slices_S256x128x16_o0_0_4_S256x128x1 : S256x128x16.Slices ![0, 0, 4] S256x128x1
  slices_S32x128x16_o0_0_5_S32x128x1 : S32x128x16.Slices ![0, 0, 5] S32x128x1
  slices_S256x128x16_o0_0_5_S256x128x1 : S256x128x16.Slices ![0, 0, 5] S256x128x1
  slices_S32x128x16_o0_0_6_S32x128x1 : S32x128x16.Slices ![0, 0, 6] S32x128x1
  slices_S256x128x16_o0_0_6_S256x128x1 : S256x128x16.Slices ![0, 0, 6] S256x128x1
  slices_S32x128x16_o0_0_7_S32x128x1 : S32x128x16.Slices ![0, 0, 7] S32x128x1
  slices_S256x128x16_o0_0_7_S256x128x1 : S256x128x16.Slices ![0, 0, 7] S256x128x1
  slices_S32x128x16_o0_0_8_S32x128x1 : S32x128x16.Slices ![0, 0, 8] S32x128x1
  slices_S256x128x16_o0_0_8_S256x128x1 : S256x128x16.Slices ![0, 0, 8] S256x128x1
  slices_S32x128x16_o0_0_9_S32x128x1 : S32x128x16.Slices ![0, 0, 9] S32x128x1
  slices_S256x128x16_o0_0_9_S256x128x1 : S256x128x16.Slices ![0, 0, 9] S256x128x1
  slices_S32x128x16_o0_0_10_S32x128x1 : S32x128x16.Slices ![0, 0, 10] S32x128x1
  slices_S256x128x16_o0_0_10_S256x128x1 : S256x128x16.Slices ![0, 0, 10] S256x128x1
  slices_S32x128x16_o0_0_11_S32x128x1 : S32x128x16.Slices ![0, 0, 11] S32x128x1
  slices_S256x128x16_o0_0_11_S256x128x1 : S256x128x16.Slices ![0, 0, 11] S256x128x1
  slices_S32x128x16_o0_0_12_S32x128x1 : S32x128x16.Slices ![0, 0, 12] S32x128x1
  slices_S256x128x16_o0_0_12_S256x128x1 : S256x128x16.Slices ![0, 0, 12] S256x128x1
  slices_S32x128x16_o0_0_13_S32x128x1 : S32x128x16.Slices ![0, 0, 13] S32x128x1
  slices_S256x128x16_o0_0_13_S256x128x1 : S256x128x16.Slices ![0, 0, 13] S256x128x1
  slices_S32x128x16_o0_0_14_S32x128x1 : S32x128x16.Slices ![0, 0, 14] S32x128x1
  slices_S256x128x16_o0_0_14_S256x128x1 : S256x128x16.Slices ![0, 0, 14] S256x128x1
  slices_S32x128x16_o0_0_15_S32x128x1 : S32x128x16.Slices ![0, 0, 15] S32x128x1
  slices_S256x128x16_o0_0_15_S256x128x1 : S256x128x16.Slices ![0, 0, 15] S256x128x1
  reduces_S32x256x128_S32x128 : S32x256x128.Reduces [1] S32x128
  inb_S32x128_S32x128_0_0 : ∀ a, (![0, 0] : Fin 2 → Nat) a + S32x128.size a ≤ S32x128.size a
  h_S32x128 : 0 < S32x128.numel
  concatenates_S256x512_S256x128_S256x640_d1 : Shape.Concatenates [S256x512, S256x128] S256x640 1
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .bf16 = 32 ∨ (Rect.block (s := S256x512) S256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .f32 = 32 ∨ (Rect.block (s := S256x2048) S256x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128x16.size a ≤ S256x128x16.size a
  hwx1_0 : ∀ i : grid1.Coords, EltTy.bits .f32 = 32 ∨ (Rect.block (s := S256x128x16) S32x128x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128x16.size a ≤ S256x128x16.size a
  hwx1_1 : ∀ i : grid1.Coords, EltTy.bits .f32 = 32 ∨ (Rect.block (s := S256x128x16) S256x128x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S256x128.size a
  hwx1_2 : ∀ i : grid1.Coords, EltTy.bits .f32 = 32 ∨ (Rect.block (s := S256x128) S32x128.size (cc1_transform_2 i) (hinb1_2 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v0) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S32x128x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S32x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x512 : Shape := ⟨2, ![256, 512]⟩
abbrev S512x2048 : Shape := ⟨2, ![512, 2048]⟩
abbrev S256x2048 : Shape := ⟨2, ![256, 2048]⟩
abbrev S256x128x16 : Shape := ⟨3, ![256, 128, 16]⟩
abbrev S1x256x128x16 : Shape := ⟨4, ![1, 256, 128, 16]⟩
abbrev S256x1x128x16 : Shape := ⟨4, ![256, 1, 128, 16]⟩
abbrev S256x256x128x16 : Shape := ⟨4, ![256, 256, 128, 16]⟩
abbrev S_ : Shape := ⟨0, ![]⟩
abbrev S256x256x128 : Shape := ⟨3, ![256, 256, 128]⟩
abbrev S256x128 : Shape := ⟨2, ![256, 128]⟩
abbrev S256x640 : Shape := ⟨2, ![256, 640]⟩

abbrev nBuf : Space → Nat
  | .hbm => 20
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x2048, .f32⟩
  | .hbm, ⟨2, _⟩ => ⟨S256x2048, .f32⟩
  | .hbm, ⟨3, _⟩ => ⟨S256x128x16, .f32⟩
  | .hbm, ⟨4, _⟩ => ⟨S1x256x128x16, .f32⟩
  | .hbm, ⟨5, _⟩ => ⟨S256x1x128x16, .f32⟩
  | .hbm, ⟨6, _⟩ => ⟨S256x256x128x16, .f32⟩
  | .hbm, ⟨7, _⟩ => ⟨S256x256x128x16, .f32⟩
  | .hbm, ⟨8, _⟩ => ⟨S256x256x128x16, .f32⟩
  | .hbm, ⟨9, _⟩ => ⟨S256x256x128x16, .f32⟩
  | .hbm, ⟨10, _⟩ => ⟨S_, .f32⟩
  | .hbm, ⟨11, _⟩ => ⟨S256x256x128, .f32⟩
  | .hbm, ⟨12, _⟩ => ⟨S256x256x128, .f32⟩
  | .hbm, ⟨13, _⟩ => ⟨S256x256x128, .f32⟩
  | .hbm, ⟨14, _⟩ => ⟨S_, .f32⟩
  | .hbm, ⟨15, _⟩ => ⟨S256x128, .f32⟩
  | .hbm, ⟨16, _⟩ => ⟨S_, .f32⟩
  | .hbm, ⟨17, _⟩ => ⟨S256x128, .f32⟩
  | .hbm, ⟨18, _⟩ => ⟨S256x128, .f32⟩
  | .hbm, ⟨19, _⟩ => ⟨S256x640, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S256x2048_S256x128x16 : S256x2048.ShapeCasts S256x128x16
  bcast_S256x128x16_S1x256x128x16_1_2_3 : S256x128x16.BroadcastsInDim S1x256x128x16 (![1, 2, 3] : Fin 3 → Fin S1x256x128x16.rank)
  bcast_S256x128x16_S256x1x128x16_0_2_3 : S256x128x16.BroadcastsInDim S256x1x128x16 (![0, 2, 3] : Fin 3 → Fin S256x1x128x16.rank)
  bcast_S1x256x128x16_S256x256x128x16_0_1_2_3 : S1x256x128x16.BroadcastsInDim S256x256x128x16 (![0, 1, 2, 3] : Fin 4 → Fin S256x256x128x16.rank)
  bcast_S256x1x128x16_S256x256x128x16_0_1_2_3 : S256x1x128x16.BroadcastsInDim S256x256x128x16 (![0, 1, 2, 3] : Fin 4 → Fin S256x256x128x16.rank)
  reducesTo_S256x256x128x16_S256x256x128_d3 : S256x256x128x16.ReducesTo [3] S256x256x128
  h_S_ : 0 < S_.numel
  reducesTo_S256x256x128_S256x128_d0 : S256x256x128.ReducesTo [0] S256x128
  bcast_S_S256x128 : S_.BroadcastsInDim S256x128 (![] : Fin 0 → Fin S256x128.rank)
  concatenates_S256x512_S256x128_S256x640_d1 : Shape.Concatenates [S256x512, S256x128] S256x640 1
  dot_S256x512_S512x2048_S256x2048_1_0_0_1_n_n_wf : DotDims.WF S256x512 S512x2048 S256x2048 [1] [0] [0] [1] [] []

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

class Facts : Prop extends Facts₀ where

variable [Facts]
-- ==== Proof.BitsData.lean ====
/-
  The proof data of the kernel program's two pallas_calls (this text is generic in the float instance), each stated at a parameter `V`: the
  TensorCore's buffer contents when the call's region is entered.

  Call 0 multiplies: one grid point, every window one block that is its whole array; the body stores
  `matmul x T 0` over the whole output block. Call 1 is the pairwise stage: eight grid points; at point `t`
  window 0 holds rows `32 t … 32 t + 31` of `m`, window 1 the whole of `m` (the same array: the two input
  windows read ONE buffer), and the body stores into window 2's block one 32 × 128 tile, a function `body1` of
  the two loaded blocks. Since both input windows of call 1 read the array `main_v3`, the core's full share of it
  is dealt between them: the left half to window 0, the right half to window 1.
-/
import proofs.«158119_j19593640804692_1_alg».proof.Proof.Gen.Kernel.Launch
import proofs.«158119_j19593640804692_1_alg».proof.Proof.Gen.Kernel.Skeleton
import proofs.«158119_j19593640804692_1_alg».proof.Proof.Gen.Kernel.Points
import Idealize.ShloMosaic.Lib.Pipeline.FrameBody

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-! ## Call 0: the matrix product -/

/-- Window `w`'s block at point `t` of call 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body of call 0 loads and stores through. -/
abbrev r0_0 : Rect S256x512 := Rect.unit (s := S256x512) ![0, 0] S256x512.size inb_S256x512_S256x512_0_0
abbrev r0_1 : Rect S512x2048 := Rect.unit (s := S512x2048) ![0, 0] S512x2048.size inb_S512x2048_S512x2048_0_0
abbrev r0_2 : Rect S256x2048 := Rect.unit (s := S256x2048) ![0, 0] S256x2048.size inb_S256x2048_S256x2048_0_0

/-- What call 0's body leaves in the output window's buffer: its one store, the product of the two loaded blocks. -/
def out0_2 (x0 : Vec F S256x512 .bf16) (x1 : Vec F S512x2048 .bf16) : Vec F S256x2048 .f32 :=
  View.canon [⟨r0_2, k0_pay1 (View.ld x0 r0_0) (View.ld x1 r0_1)⟩]

/-- Call 0's proof data on core `c`: the arrays as entered; the inputs' buffers keep their blocks, the output's
    holds the product; the invariant is the scoped rest and the generator register; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Call 1: the pairwise stage -/

/-- Window `w`'s block at point `t` of call 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S32x128x16 := Rect.unit (s := S32x128x16) ![0, 0, 0] S32x128x16.size inb_S32x128x16_S32x128x16_0_0_0
abbrev r1_1 : Rect S256x128x16 := Rect.unit (s := S256x128x16) ![0, 0, 0] S256x128x16.size inb_S256x128x16_S256x128x16_0_0_0
abbrev r1_2 : Rect S32x128 := Rect.unit (s := S32x128) ![0, 0] S32x128.size inb_S32x128_S32x128_0_0

/-- The tile call 1's body stores, as ONE function of the query block `v0` (32 rows of `m`) and the key block `v2`
    (all 256 rows): the body's three parts composed. -/
def body1 (v0 : Vec F S32x128x16 .f32) (v2 : Vec F S256x128x16 .f32) : FVec F S32x128 .f32 :=
  k1_pay1 (k1_pay3 v2)
    (k1_pay10 (k1_pay2 v0) (k1_pay3 v2)
      (k1_pay7 (k1_pay2 v0) (k1_pay3 v2) (k1_pay4 v0 v2) (k1_pay5 v0) (k1_pay6 v2))
      (k1_pay8 (k1_pay2 v0)) (k1_pay9 (k1_pay3 v2)))
    (k1_pay11 (k1_pay2 v0))

/-- What call 1's body leaves in the output window's buffer. -/
def out1_2 (x0 : Vec F S32x128x16 .f32) (x1 : Vec F S256x128x16 .f32) : Vec F S32x128 .f32 :=
  View.canon [⟨r1_2, body1 (View.ld x0 r1_0) (View.ld x1 r1_1)⟩]

/-- Call 1's proof data on core `c`. The two input windows read one array: window 0 holds it at the left half
    of the full share, window 1 at the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.Kernel.Hand

end
-- ==== Proof.BitsSegs.lean ====
/-
  The two pallas_calls as regions of @main, over thread states that hold EVERY unscoped buffer of the core at a named
  valuation. Between two items of @main the valuation is: the launch memory, then each host stretch applied, then at
  each call's exit its output array replaced by what the call's write-backs leave (`Dat.arrAt … N`).

  Call 0's three windows read and write three distinct arrays, each held whole. Call 1's two INPUT windows read one
  array, `main_v3`: at the call's entry the core's full share of that buffer is split, the left half to window 0 and
  the right half to window 1 (both at the same contents), and at the exit the two halves are joined again; the output
  array `main_v4` is held whole throughout.
-/
import proofs.«158119_j19593640804692_1_alg».proof.Proof.BitsData
import proofs.«158119_j19593640804692_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the calls leave, and the valuations between items -/

/-- The buffers as call 0 finds them: the launch memory after the two format changes. -/
abbrev E1 : (c : Dev nD) → (b : Ref sig .tc) → Buf (Elt F) ((c : Thread nD τ).loc b) := fun c b => Gen.V1 m c b

/-- What call 0 leaves in `main_v2`: its one block written back. -/
def o2 (c : Dev nD) : Buf (Elt F) ((c : Thread nD τ).loc main_v2) := (dat0 (E1 m) c).arrAt 2 cfg0.N

/-- The buffers after call 0, and after the reshape that follows it (as call 1 finds them). -/
abbrev X2 (c : Dev nD) : Valuation τ sig (Elt F) := Function.update (Gen.V1 m c) main_v2 (o2 m c)
abbrev X3 (c : Dev nD) : Valuation τ sig (Elt F) := StableHlo.after hostOps1 (X2 m c)
abbrev E3 : (c : Dev nD) → (b : Ref sig .tc) → Buf (Elt F) ((c : Thread nD τ).loc b) := fun c b => X3 m c b

/-- What call 1 leaves in `main_v4`: its eight tiles written back. -/
def o4 (c : Dev nD) : Buf (Elt F) ((c : Thread nD τ).loc main_v4) := (dat1 (E3 m) c).arrAt 2 cfg1.N

/-- The contents the two calls leave, in the form the conditional frame takes them. -/
def outs : Gen.Outs (F := F) := fun _ r c =>
  if h2 : r = main_v2 then h2 ▸ o2 m c else if h4 : r = main_v4 then h4 ▸ o4 m c else Gen.V0 m c r

theorem outs_2 (c : Dev nD) : outs m 2 main_v2 c = o2 m c := by
  unfold outs; rw [dif_pos rfl]
theorem outs_4 (c : Dev nD) : outs m 4 main_v4 c = o4 m c := by
  unfold outs; rw [dif_neg (by decide), dif_pos rfl]

theorem V2_eq (c : Dev nD) : Gen.V2 m (outs m) c = X2 m c := by
  show Function.update (Gen.V1 m c) main_v2 (outs m 2 main_v2 c) = _
  rw [outs_2]
theorem V3_eq (c : Dev nD) : Gen.V3 m (outs m) c = X3 m c := by
  show StableHlo.after hostOps1 (Gen.V2 m (outs m) c) = _
  rw [V2_eq]

/-! ## The proof data family and what rides beside the buffers -/

/-- Every call's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item of @main: the core's generator register at some state, and
    its debts to other cores, none. -/
abbrev R (c : Dev nD) : sProp 𝕄 := iprop((∃ r, prngReg c r) ∗ ∃ W, owes (c : Thread nD τ) (0 : CellTallies nD τ sig Unit) W)

/-! ## Call 0 -/

/-- At call 0's exit each of its arrays holds what the valuation after it says: the inputs as entered, the output
    what the one write-back left. -/
theorem hF0 (c : Dev nD) : ∀ w : Fin cfg0.W, (dat0 (E1 m) c).arrAt w cfg0.N = Gen.V2 m (outs m) c (Pipeline.arrRef spec0 w)
  | ⟨0, _⟩ => ((dat0 (E1 m) c).arrAt_in 0 rfl _).trans ((A_eq0 (E1 m) c 0).trans (Gen.V2_of m (outs m) c main_v0 (by decide)).symm)
  | ⟨1, _⟩ => ((dat0 (E1 m) c).arrAt_in 1 rfl _).trans ((A_eq0 (E1 m) c 1).trans (Gen.V2_of m (outs m) c main_v1 (by decide)).symm)
  | ⟨2, _⟩ => by
      show _ = Function.update (Gen.V1 m c) main_v2 (outs m 2 main_v2 c) main_v2
      rw [Function.update_self, outs_2]; rfl

/-- Every other buffer is as call 0 found it. -/
theorem hrest0 (c : Dev nD) : ∀ b : Ref sig .tc, b ∉ Finset.univ.image (Pipeline.arrRef spec0) → Gen.V2 m (outs m) c b = Gen.V1 m c b :=
  fun b hb => Gen.V2_of m (outs m) c b fun h =>
    hb (Finset.mem_image.mpr ⟨2, Finset.mem_univ _, (List.mem_singleton.mp h).symm ▸ rfl⟩)

set_option backward.isDefEq.respectTransparency.types false in
/-- Call 0 as a region: entered from every unscoped buffer at the valuation after the format changes, left at that
    valuation with `main_v2` replaced. Its three arrays are split out of the unscoped buffers at entry and put back at
    exit; the generator register goes into the body's invariant and comes back; nothing is owed. -/
def reg0 (hb : ∀ c, BodyObligation (dat0 (F := F) (E1 m) c) (defs₀ (F := F)) Variants.none () Set.univ) :
    Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 1: two input windows on one array -/

/-- The buffers behind call 1's arrays are two: `main_v3`, read by both input windows, and the output `main_v4`. -/
theorem arrImage1 : (Finset.univ.image (Pipeline.arrRef spec1) : Finset (Ref sig .tc)) = insert main_v3 {main_v4} := by decide

/-- Those two buffers, each whole at the full share. -/
theorem arrBufs1_eq (c : Dev nD) (W : (b : Ref sig .tc) → Buf (Elt F) ((c : Thread nD τ).loc b)) :
    (Pipeline.arrBufs spec1 c W : sProp 𝕄)
      = iprop((((c : Thread nD τ).loc main_v3) ↦{fullShare} W main_v3) ∗ (((c : Thread nD τ).loc main_v4) ↦{fullShare} W main_v4)) := by
  unfold Pipeline.arrBufs
  rw [arrImage1, bigSep_insert (by decide), bigSep_singleton]
  rfl

/-- Call 1's arrays at contents `G`, window by window: window 0 holds `main_v3` at the left half of the full share,
    window 1 holds the same buffer at the right half, window 2 holds `main_v4` whole. -/
theorem arrays1_eq (V : (c : Dev nD) → (b : Ref sig .tc) → Buf (Elt F) ((c : Thread nD τ).loc b)) (c : Dev nD)
    (G : (w : Fin cfg1.W) → Buf (Elt F) ((cfg1.win w).arr.view.loc (c.tc : Thread nD τ))) :
    ((dat1 V c).arrays G : sProp 𝕄)
      = iprop((((c : Thread nD τ).loc main_v3) ↦{fullShare.left} G 0) ∗ (((c : Thread nD τ).loc main_v3) ↦{fullShare.right} G 1)
          ∗ (((c : Thread nD τ).loc main_v4) ↦{fullShare} G 2)) := by
  unfold Dat.arrays
  rw [bigSep_W1, (arr_whole1 0).set_eq_univ, (arr_whole1 2).set_eq_univ]
  rfl

/-- ENTRY: the full share of `main_v3` is dealt to the two windows that read it. -/
theorem arrays1_of_arrBufs (V : (c : Dev nD) → (b : Ref sig .tc) → Buf (Elt F) ((c : Thread nD τ).loc b)) (c : Dev nD)
    (W : (b : Ref sig .tc) → Buf (Elt F) ((c : Thread nD τ).loc b))
    (G : (w : Fin cfg1.W) → Buf (Elt F) ((cfg1.win w).arr.view.loc (c.tc : Thread nD τ)))
    (h0 : G 0 = W main_v3) (h1 : G 1 = W main_v3) (h2 : G 2 = W main_v4) :
    (Pipeline.arrBufs spec1 c W : sProp 𝕄) ⊢ (dat1 V c).arrays G := by
  rw [arrBufs1_eq, arrays1_eq, h0, h1, h2]
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- EXIT: the two halves, at one contents, are the buffer whole again. -/
theorem arrBufs1_of_arrays (V : (c : Dev nD) → (b : Ref sig .tc) → Buf (Elt F) ((c : Thread nD τ).loc b)) (c : Dev nD)
    (W : (b : Ref sig .tc) → Buf (Elt F) ((c : Thread nD τ).loc b))
    (G : (w : Fin cfg1.W) → Buf (Elt F) ((cfg1.win w).arr.view.loc (c.tc : Thread nD τ)))
    (h0 : G 0 = W main_v3) (h1 : G 1 = W main_v3) (h2 : G 2 = W main_v4) :
    ((dat1 V c).arrays G : sProp 𝕄) ⊢ Pipeline.arrBufs spec1 c W := by
  rw [arrBufs1_eq, arrays1_eq, h0, h1, h2]
  iintro ⟨Hl, Hr, H4⟩
  isplitl [Hl Hr]
  · iapply (pointsTo_share (PosShare.mem_left_op_right fullShare)).2
    isplitl [Hl]; · iexact Hl
    iexact Hr
  iexact H4

/-- At call 1's exit each of its arrays holds what the valuation after it says: the two input windows' common array
    as entered, the output what the eight write-backs left. -/
theorem hF1_in (c : Dev nD) : (dat1 (E3 m) c).arrAt 0 cfg1.N = Gen.V4 m (outs m) c main_v3 ∧ (dat1 (E3 m) c).arrAt 1 cfg1.N = Gen.V4 m (outs m) c main_v3 :=
  have e : Gen.V4 m (outs m) c main_v3 = X3 m c main_v3 := (Gen.V4_of m (outs m) c main_v3 (by decide)).trans (congrFun (V3_eq m c) _)
  ⟨((dat1 (E3 m) c).arrAt_in 0 rfl _).trans ((A_eq1 (E3 m) c 0).trans e.symm),
   ((dat1 (E3 m) c).arrAt_in 1 rfl _).trans ((A_eq1 (E3 m) c 1).trans e.symm)⟩

theorem hF1_out (c : Dev nD) : (dat1 (E3 m) c).arrAt 2 cfg1.N = Gen.V4 m (outs m) c main_v4 := by
  show _ = Function.update (Gen.V3 m (outs m) c) main_v4 (outs m 4 main_v4 c) main_v4
  rw [Function.update_self, outs_4]; rfl

/-- Every other buffer is as call 1 found it. -/
theorem hrest1 (c : Dev nD) : ∀ b : Ref sig .tc, b ∉ Finset.univ.image (Pipeline.arrRef spec1) → Gen.V4 m (outs m) c b = X3 m c b :=
  fun b hb => (Gen.V4_of m (outs m) c b fun h =>
    hb (Finset.mem_image.mpr ⟨2, Finset.mem_univ _, (List.mem_singleton.mp h).symm ▸ rfl⟩)).trans (congrFun (V3_eq m c) _)

/-- ENTRY, the buffers' part: every unscoped buffer at the valuation after the reshape is call 1's arrays at their
    entry contents (the common array's share dealt to the two windows) beside the other unscoped buffers. -/
theorem entry1 (c : Dev nD) : (StableHlo.held (c : Thread nD τ) (Pipeline.ucRefs τ sig) (Gen.V3 m (outs m) c) : sProp 𝕄)
    ⊢ iprop((dat1 (E3 m) c).arrays ((dat1 (E3 m) c).arrAt · 0) ∗ Pipeline.unscopedRest spec1 c (E3 m c)) := by
  rw [V3_eq, ← Pipeline.unscopedBufs_held (Ix := Unit) (Name := ℕ) (U := UR sig nD τ) (Lvl := ℕ) c (X3 m c),
    Pipeline.unscopedBufs_split₀ cfgs 1 winFacts₀1.arr_unscoped c (E3 m c)]
  exact sep_mono (arrays1_of_arrBufs (E3 m) c (E3 m c) _ (A_eq1 (E3 m) c 0) (A_eq1 (E3 m) c 1) (A_eq1 (E3 m) c 2)) .rfl

/-- The unscoped buffers that are none of call 1's arrays hold after the call what they held before it. -/
theorem rest1_eq (c : Dev nD) : (Pipeline.unscopedRest spec1 c (E3 m c) : sProp 𝕄)
    = Pipeline.unscopedRest spec1 c (fun b => Gen.V4 m (outs m) c b) := by
  unfold Pipeline.unscopedRest
  exact bigSep_congr fun b hb =>
    congrArg (fun x : Buf (Elt F) ((c : Thread nD τ).loc b) => (((c : Thread nD τ).loc b) ↦{fullShare} x : sProp 𝕄))
      (hrest1 m c b (Finset.mem_sdiff.mp hb).2).symm

/-- EXIT, the buffers' part: call 1's arrays at their final contents (the halves joined) and the other unscoped
    buffers are every unscoped buffer at the valuation after the call. -/
theorem exit1 (c : Dev nD) : iprop((dat1 (E3 m) c).arrays ((dat1 (E3 m) c).arrAt · cfg1.N) ∗ Pipeline.unscopedRest spec1 c (E3 m c))
    ⊢ (StableHlo.held (c : Thread nD τ) (Pipeline.ucRefs τ sig) (Gen.V4 m (outs m) c) : sProp 𝕄) := by
  rw [← Pipeline.unscopedBufs_held (Ix := Unit) (Name := ℕ) (U := UR sig nD τ) (Lvl := ℕ) c (Gen.V4 m (outs m) c),
    Pipeline.unscopedBufs_split₀ cfgs 1 winFacts₀1.arr_unscoped c (fun b => Gen.V4 m (outs m) c b), rest1_eq]
  exact sep_mono (arrBufs1_of_arrays (E3 m) c (fun b => Gen.V4 m (outs m) c b) _ (hF1_in m c).1 (hF1_in m c).2 (hF1_out m c)) .rfl

set_option backward.isDefEq.respectTransparency.types false in
/-- Call 1 as a region: entered from every unscoped buffer at the valuation after the reshape, left at that valuation
    with `main_v4` replaced. At entry the buffers behind its arrays are taken out of the unscoped buffers and
    `main_v3`'s full share is dealt to the two windows that read it; at exit the halves are joined and the buffers put
    back. -/
def reg1 (hb : ∀ c, BodyObligation (dat1 (F := F) (E3 m) c) (defs₀ (F := F)) Variants.none () Set.univ) :
    Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.BitsFrame.lean ====
/-
  The launch of the kernel program (this text is generic in the float instance): the two region records and the
  generated host segments put under the several-regions launch theorem. The core owes nothing and no level is
  assigned; beside the buffers ride only the generator register and the (empty) debts. The result is the frame: every
  weakly fair execution terminates, nothing faults, both argument arrays end as launched.
-/
import proofs.«158119_j19593640804692_1_alg».proof.Proof.BitsSegs

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipeline library's, at every call's staging cells. -/
abbrev u₀ : UR sig nD τ := initOf (Pipeline.cells cfgs cellOf_inj) (Pipeline.launchToks cfgs cellOf_inj)

/-- It yields the pipeline library's element and nothing else. -/
theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals beside the buffers makes the riding state on every core: the register as launched, no debts. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- At the end the riding state owes nothing. -/
theorem hE2 (c : Dev nD) : (R (F := F) c : sProp 𝕄) ⊢ (iprop(∃ W, owes (c : Thread nD τ) (0 : CellTallies nD τ sig Unit) W) : sProp 𝕄) := by
  iintro ⟨-, HO⟩; iexact HO

/-- THE FRAME: every weakly fair execution of @main terminates, nothing faults, both argument arrays end as launched. -/
theorem frame
    (hb0 : ∀ c, BodyObligation (dat0 (F := F) (E1 m) c) (defs₀ (F := F)) Variants.none () Set.univ)
    (hb1 : ∀ c, BodyObligation (dat1 (F := F) (E3 m) c) (defs₀ (F := F)) Variants.none () Set.univ) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () 𝒱₀ L lv (fun _ _ => rfl) ρ (outs m) (pdats m) 0 (fun _ => (BI.emp : sProp 𝕄)) u₀ (hu₀ (F := F))
    (fun _ c => R c) (hE0 ρ) hE2 (reg0 m hb0) (fun _ => .rfl) (fun _ => .rfl) (reg1 m hb1) (fun _ => .rfl) (fun _ => .rfl)

end Cert.Kernel.Hand

end
-- ==== Proof.BitsBody0.lean ====
/-
  The body obligation of call 0, the matrix product.

  Call 0 runs at one grid point and each of its three windows is a single block, the whole of its array. There the
  body reads the two bf16 input blocks through rectangles that are the whole 256 × 512 and 512 × 2048 blocks, reads
  the f32 output buffer once and drops what it read, and then stores the product of the two loaded blocks through the
  rectangle that is the whole 256 × 2048 block.

  Three facts make the obligation:
  * an input window's buffer holds that window's block when the body starts (the body leaves an input buffer as it
    found it, so the buffer holds what a fetch at the point brings, fetched there or not);
  * the one store's rectangle is the whole output block, so it covers every index of it, and whatever the output
    buffer held before the body — it is unconstrained — is overwritten everywhere: the read in between sees the old
    contents and no later operation depends on it;
  * hence the output buffer afterwards reads the canonical contents of that single write, which is `out0_2` of the
    two input blocks, while the two input buffers still read their blocks.
  The pipeline's invariant and what the core owes are not touched by the body and are handed through.
-/
import proofs.«158119_j19593640804692_1_alg».proof.Proof.BitsData
import Idealize.ShloMosaic.Lib.Pipeline.FrameBody
import Idealize.ShloMosaic.Lib.Tactic
import Idealize.ShloMosaic.Lib.Writes

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input buffers hold their blocks -/

/-- The x-block: window 0 is an input the body never writes, so before the body its buffer reads the block of
    `main_v0` at the point. -/
theorem in0_0 (c : Dev nD) (t : Fin cfg0.N) (d) : (dat0 V c).before 0 t d = iblk0 V c 0 t := by
  have hkeep : ∀ t, (cfg0.win 0).cut (cfg0.grid.coords t) ((dat0 V c).after 0 t) = (dat0 V c).blockOf 0 t := by
    intro t
    rw [after0_0]
    unfold Dat.blockOf iblk0
    rw [A_eq0]
    try rfl
  rw [(dat0 V c).before_in_eq_fetched 0 rfl (fun _ => rfl) (fun _ _ _ => rfl) hkeep t d]
  unfold Dat.fetched Dat.blockOf iblk0
  rw [A_eq0]
  try rfl

/-- The T-block: the same of window 1 and `main_v1`. -/
theorem in0_1 (c : Dev nD) (t : Fin cfg0.N) (d) : (dat0 V c).before 1 t d = iblk0 V c 1 t := by
  have hkeep : ∀ t, (cfg0.win 1).cut (cfg0.grid.coords t) ((dat0 V c).after 1 t) = (dat0 V c).blockOf 1 t := by
    intro t
    rw [after0_1]
    unfold Dat.blockOf iblk0
    rw [A_eq0]
    try rfl
  rw [(dat0 V c).before_in_eq_fetched 1 rfl (fun _ => rfl) (fun _ _ _ => rfl) hkeep t d]
  unfold Dat.fetched Dat.blockOf iblk0
  rw [A_eq0]
  try rfl

/-! ## The store fills the output block -/

/-- One piece whose rectangle is the whole 256 × 2048 block tiles that block in blocks of its own size; so every
    index of the block lies under it, whatever the payload. -/
theorem fills0_2 (p : Vec F S256x2048 .f32) (y : S256x2048.Idx) :
    ∃ pc ∈ ([⟨r0_2, p⟩] : List (View.Piece (Elt F) S256x2048 .f32)), y ∈ pc.1.set :=
  View.cover_of_tiled [⟨r0_2, p⟩] S256x2048.size (by rfl) y

/-! ## The body on whole buffers -/

set_option maxHeartbeats 400000 in
/-- On three whole buffers, the first two reading `x0` and `x1` and the third anything, the body of call 0 runs and
    returns them with the first two unchanged and the third reading `out0_2 x0 x1`. -/
theorem run0 (c : Dev nD) (E : Set ℕ) (i : grid0.Coords)
    (a1 : Memref sig .tc .vmem S256x512 .bf16) (h1 : a1.IsWhole)
    (a2 : Memref sig .tc .vmem S512x2048 .bf16) (h2 : a2.IsWhole)
    (a3 : Memref sig .tc .vmem S256x2048 .f32) (h3 : a3.IsWhole)
    (x0 : Vec F S256x512 .bf16) (x1 : Vec F S512x2048 .bf16) (K : PUnit → sProp 𝕄) :
    iprop(owns (c : Thread nD τ) a1 fullShare x0 ∗ owns (c : Thread nD τ) a2 fullShare x1
        ∗ (∃ d, owns (c : Thread nD τ) a3 fullShare d)
        ∗ (iprop(owns (c : Thread nD τ) a1 fullShare x0 ∗ owns (c : Thread nD τ) a2 fullShare x1
            ∗ owns (c : Thread nD τ) a3 fullShare (out0_2 x0 x1)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0
    isplitr
    · ipureintro; rfl
    · iexact H0
  isplitl [H1]
  · iexists f1
    isplitr
    · ipureintro; rfl
    · iexact H1
  iexists _
  isplitr
  swap
  · iexact H2
  ipureintro
  exact View.read_writes_eq_canon _ _ _ (fills0_2 _)

/-! ## The obligation at a point -/

/-- What the pipeline hands the body at point `t`, window by window: the invariant, what the core owes, and each
    window's current buffer at what it holds then. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it takes back: the same invariant and dues at the next point, each buffer at what the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 400000 in
/-- At any point the two input buffers read their blocks, so `run0` applies with `x0`, `x1` those blocks; the output
    buffer's prior contents are whatever they are. The invariant and the dues do not depend on the point and are not
    read by the body. -/
theorem at_point0 (c : Dev nD) (t : Fin cfg0.N) :
    pre0 V c t ⊢ wp frame (wpE (defs₀ (F := F)) Variants.none c none) Set.univ (bodyAt0 t) (fun _ => post0 V c t) := by
  unfold pre0 post0 bodyAt0
  simp only [in0_0, in0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (run0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of call 0 at proof data `dat0`: the conjunction over the three windows written out, it is
    `at_point0` at every point. -/
theorem body_obligation0 (c : Dev nD) : BodyObligation (dat0 (F := F) V c) (defs₀ (F := F)) Variants.none () Set.univ := fun t => by
  rw [bigSep_W0, bigSep_W0]
  exact at_point0 V c t

end Cert.Kernel.Hand

end
-- ==== Proof.BitsBody1.lean ====
/-
  The body of the pairwise stage at a grid point.

  At point t the body reads two blocks of the one array m: the query block (rows 32 t … 32 t + 31, window 0)
  and the key block (all 256 rows, window 1). The key window's block index never moves, so its buffer holds the
  same 256 rows at every point although they arrive only once; the query window's buffer holds a fresh block at
  each point. From the two blocks the body forms, in three consecutive stretches of pure arithmetic, the running
  sum over the sixteen kernel values k of |q p f k − kk j f k| (four terms, then five, then six, the last term
  added at the end), and from it the tile Σ_j exp (−Σ_k …) − 1, which it stores over the whole 32 × 128 output
  block in one store. Composing the stretches gives the single function body1 of the two blocks. Because that
  one store covers every index of the output block, what the block held before (which the body also loads,
  without using the value) leaves no trace: the buffer afterwards reads as the stored tile alone.
-/
import proofs.«158119_j19593640804692_1_alg».proof.Proof.BitsData
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the two input buffers hold when the body runs -/

/-- The query window's buffer holds rows 32 t … 32 t + 31 of m at point t: the block is whole (nothing of it lies
    outside the array), the body leaves it as it found it, and a fetch puts exactly the block there. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The key window's buffer holds all of m at every point. It is filled at the first point only; at a later
    point its block index is the one of the point before, so the block left there is still this point's. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The one store covers the output block -/

/-- The rectangle of the body's store is the whole 32 × 128 block: every index lies in it. -/
theorem cover1_2 (p : Vec F S32x128 .f32) (y : S32x128.Idx) :
    ∃ pc ∈ ([⟨r1_2, p⟩] : List (View.Piece (Elt F) S32x128 .f32)), y ∈ pc.1.set :=
  View.cover_of_tiled [⟨r1_2, p⟩] S32x128.size (by rfl) y

/-! ## The body on three whole buffers -/

/-- Run on three whole buffers, the first reading x0, the second x1, the third anything, the body ends with the
    first two as they were and the third reading the tile body1 of the two loaded blocks. -/
theorem sound_kernel1 (c : Dev nD) (E : Set ℕ) (i : grid1.Coords)
    (arg1 : Memref sig .tc .vmem S32x128x16 .f32) (harg1 : arg1.IsWhole)
    (arg2 : Memref sig .tc .vmem S256x128x16 .f32) (harg2 : arg2.IsWhole)
    (arg3 : Memref sig .tc .vmem S32x128 .f32) (harg3 : arg3.IsWhole)
    (x0 : Vec F S32x128x16 .f32) (x1 : Vec F S256x128x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (out1_2 x0 x1)) -∗ K ⟨⟩))
      ⊢ wp frame (wpE (defs₀ (F := F)) Variants.none c none) E
          (cc1__pairwise_kernel i arg1 harg1 arg2 harg2 arg3 harg3) K := by
  unfold owns
  iintro ⟨⟨%f0, %hf0, H0⟩, ⟨%f1, %hf1, H1⟩, ⟨%d2, %f2, -, H2⟩, Hk⟩
  subst hf0 hf1
  sl_unfold [cc1__pairwise_kernel]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_run_names
  unfold out1_2 body1
  exact View.read_writes_eq_canon _ _ _ (cover1_2 _)

/-! ## The body at a grid point -/

/-- What the body is handed at point t: the invariant, what the core owes, and each window's current buffer —
    the two inputs' at whatever a buffer nothing has filled held (d) carried through the schedule, the output's
    likewise. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back: the same invariant and debts one point on, each buffer at what the proof data says the
    body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At every point the two input buffers read the query block and the key block of m, whatever d was; so the body
    runs as on three whole buffers and leaves the tile body1 of those two blocks in the output buffer. The
    invariant and the debts do not depend on the point and are handed through untouched. -/
theorem sound_body1 (c : Dev nD) (t : Fin cfg1.N) :
    bodyPre1 V c t ⊢ wp frame (wpE (defs₀ (F := F)) Variants.none c none) Set.univ (bodyAt1 t)
      (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨Hinv, Hdebt, ⟨%d0, Hq⟩, ⟨%d1, Hk⟩, ⟨%d2, Hout⟩⟩
  iapply (sound_kernel1 c Set.univ _ _ _ _ _ _ _ (iblk1 V c 0 t) (iblk1 V c 1 t) _)
  isplitl [Hq]; · iexact Hq
  isplitl [Hk]; · iexact Hk
  isplitl [Hout]; · iexists _; iexact Hout
  iintro ⟨Hq, Hk, Hout⟩
  isplitl [Hinv]; · iexact Hinv
  isplitl [Hdebt]; · iexact Hdebt
  isplitl [Hq]; · iexact Hq
  isplitl [Hk]; · iexact Hk
  iexact Hout

/-- The pairwise stage's body obligation: the three windows taken one by one, it is the statement above at every
    one of the eight points. -/
theorem body_obligation1 (c : Dev nD) : BodyObligation (dat1 (F := F) V c) (defs₀ (F := F)) Variants.none () Set.univ :=
  fun t => by
    rw [bigSep_W1, bigSep_W1]
    exact sound_body1 V c t

end Cert.Kernel.Hand

end
-- ==== Proof.IdealData.lean ====
/-
  The proof data of the kernel program's two pallas_calls (this text is generic in the float instance), each stated at a parameter `V`: the
  TensorCore's buffer contents when the call's region is entered.

  Call 0 multiplies: one grid point, every window one block that is its whole array; the body stores
  `matmul x T 0` over the whole output block. Call 1 is the pairwise stage: eight grid points; at point `t`
  window 0 holds rows `32 t … 32 t + 31` of `m`, window 1 the whole of `m` (the same array: the two input
  windows read ONE buffer), and the body stores into window 2's block one 32 × 128 tile, a function `body1` of
  the two loaded blocks. Since both input windows of call 1 read the array `main_v3`, the core's full share of it
  is dealt between them: the left half to window 0, the right half to window 1.
-/
import proofs.«158119_j19593640804692_1_alg».proof.Proof.Gen.KernelIdeal.Launch
import proofs.«158119_j19593640804692_1_alg».proof.Proof.Gen.KernelIdeal.Skeleton
import proofs.«158119_j19593640804692_1_alg».proof.Proof.Gen.KernelIdeal.Points
import Idealize.ShloMosaic.Lib.Pipeline.FrameBody

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## Call 0: the matrix product -/

/-- Window `w`'s block at point `t` of call 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body of call 0 loads and stores through. -/
abbrev r0_0 : Rect S256x512 := Rect.unit (s := S256x512) ![0, 0] S256x512.size inb_S256x512_S256x512_0_0
abbrev r0_1 : Rect S512x2048 := Rect.unit (s := S512x2048) ![0, 0] S512x2048.size inb_S512x2048_S512x2048_0_0
abbrev r0_2 : Rect S256x2048 := Rect.unit (s := S256x2048) ![0, 0] S256x2048.size inb_S256x2048_S256x2048_0_0

/-- What call 0's body leaves in the output window's buffer: its one store, the product of the two loaded blocks. -/
def out0_2 (x0 : Vec F S256x512 .bf16) (x1 : Vec F S512x2048 .bf16) : Vec F S256x2048 .f32 :=
  View.canon [⟨r0_2, k0_pay1 (View.ld x0 r0_0) (View.ld x1 r0_1)⟩]

/-- Call 0's proof data on core `c`: the arrays as entered; the inputs' buffers keep their blocks, the output's
    holds the product; the invariant is the scoped rest and the generator register; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Call 1: the pairwise stage -/

/-- Window `w`'s block at point `t` of call 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S32x128x16 := Rect.unit (s := S32x128x16) ![0, 0, 0] S32x128x16.size inb_S32x128x16_S32x128x16_0_0_0
abbrev r1_1 : Rect S256x128x16 := Rect.unit (s := S256x128x16) ![0, 0, 0] S256x128x16.size inb_S256x128x16_S256x128x16_0_0_0
abbrev r1_2 : Rect S32x128 := Rect.unit (s := S32x128) ![0, 0] S32x128.size inb_S32x128_S32x128_0_0

/-- The tile call 1's body stores, as ONE function of the query block `v0` (32 rows of `m`) and the key block `v2`
    (all 256 rows): the body's three parts composed. -/
def body1 (v0 : Vec F S32x128x16 .f32) (v2 : Vec F S256x128x16 .f32) : FVec F S32x128 .f32 :=
  k1_pay1 (k1_pay3 v2)
    (k1_pay10 (k1_pay2 v0) (k1_pay3 v2)
      (k1_pay7 (k1_pay2 v0) (k1_pay3 v2) (k1_pay4 v0 v2) (k1_pay5 v0) (k1_pay6 v2))
      (k1_pay8 (k1_pay2 v0)) (k1_pay9 (k1_pay3 v2)))
    (k1_pay11 (k1_pay2 v0))

/-- What call 1's body leaves in the output window's buffer. -/
def out1_2 (x0 : Vec F S32x128x16 .f32) (x1 : Vec F S256x128x16 .f32) : Vec F S32x128 .f32 :=
  View.canon [⟨r1_2, body1 (View.ld x0 r1_0) (View.ld x1 r1_1)⟩]

/-- Call 1's proof data on core `c`. The two input windows read one array: window 0 holds it at the left half
    of the full share, window 1 at the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.KernelIdeal.Hand

end
-- ==== Proof.IdealBody0.lean ====
/-
  The body obligation of call 0, the matrix product.

  Call 0 runs at one grid point and each of its three windows is a single block, the whole of its array. There the
  body reads the two bf16 input blocks through rectangles that are the whole 256 × 512 and 512 × 2048 blocks, reads
  the f32 output buffer once and drops what it read, and then stores the product of the two loaded blocks through the
  rectangle that is the whole 256 × 2048 block.

  Three facts make the obligation:
  * an input window's buffer holds that window's block when the body starts (the body leaves an input buffer as it
    found it, so the buffer holds what a fetch at the point brings, fetched there or not);
  * the one store's rectangle is the whole output block, so it covers every index of it, and whatever the output
    buffer held before the body — it is unconstrained — is overwritten everywhere: the read in between sees the old
    contents and no later operation depends on it;
  * hence the output buffer afterwards reads the canonical contents of that single write, which is `out0_2` of the
    two input blocks, while the two input buffers still read their blocks.
  The pipeline's invariant and what the core owes are not touched by the body and are handed through.
-/
import proofs.«158119_j19593640804692_1_alg».proof.Proof.IdealData
import Idealize.ShloMosaic.Lib.Pipeline.FrameBody
import Idealize.ShloMosaic.Lib.Tactic
import Idealize.ShloMosaic.Lib.Writes

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input buffers hold their blocks -/

/-- The x-block: window 0 is an input the body never writes, so before the body its buffer reads the block of
    `main_v0` at the point. -/
theorem in0_0 (c : Dev nD) (t : Fin cfg0.N) (d) : (dat0 V c).before 0 t d = iblk0 V c 0 t := by
  have hkeep : ∀ t, (cfg0.win 0).cut (cfg0.grid.coords t) ((dat0 V c).after 0 t) = (dat0 V c).blockOf 0 t := by
    intro t
    rw [after0_0]
    unfold Dat.blockOf iblk0
    rw [A_eq0]
    try rfl
  rw [(dat0 V c).before_in_eq_fetched 0 rfl (fun _ => rfl) (fun _ _ _ => rfl) hkeep t d]
  unfold Dat.fetched Dat.blockOf iblk0
  rw [A_eq0]
  try rfl

/-- The T-block: the same of window 1 and `main_v1`. -/
theorem in0_1 (c : Dev nD) (t : Fin cfg0.N) (d) : (dat0 V c).before 1 t d = iblk0 V c 1 t := by
  have hkeep : ∀ t, (cfg0.win 1).cut (cfg0.grid.coords t) ((dat0 V c).after 1 t) = (dat0 V c).blockOf 1 t := by
    intro t
    rw [after0_1]
    unfold Dat.blockOf iblk0
    rw [A_eq0]
    try rfl
  rw [(dat0 V c).before_in_eq_fetched 1 rfl (fun _ => rfl) (fun _ _ _ => rfl) hkeep t d]
  unfold Dat.fetched Dat.blockOf iblk0
  rw [A_eq0]
  try rfl

/-! ## The store fills the output block -/

/-- One piece whose rectangle is the whole 256 × 2048 block tiles that block in blocks of its own size; so every
    index of the block lies under it, whatever the payload. -/
theorem fills0_2 (p : Vec F S256x2048 .f32) (y : S256x2048.Idx) :
    ∃ pc ∈ ([⟨r0_2, p⟩] : List (View.Piece (Elt F) S256x2048 .f32)), y ∈ pc.1.set :=
  View.cover_of_tiled [⟨r0_2, p⟩] S256x2048.size (by rfl) y

/-! ## The body on whole buffers -/

set_option maxHeartbeats 400000 in
/-- On three whole buffers, the first two reading `x0` and `x1` and the third anything, the body of call 0 runs and
    returns them with the first two unchanged and the third reading `out0_2 x0 x1`. -/
theorem run0 (c : Dev nD) (E : Set ℕ) (i : grid0.Coords)
    (a1 : Memref sig .tc .vmem S256x512 .bf16) (h1 : a1.IsWhole)
    (a2 : Memref sig .tc .vmem S512x2048 .bf16) (h2 : a2.IsWhole)
    (a3 : Memref sig .tc .vmem S256x2048 .f32) (h3 : a3.IsWhole)
    (x0 : Vec F S256x512 .bf16) (x1 : Vec F S512x2048 .bf16) (K : PUnit → sProp 𝕄) :
    iprop(owns (c : Thread nD τ) a1 fullShare x0 ∗ owns (c : Thread nD τ) a2 fullShare x1
        ∗ (∃ d, owns (c : Thread nD τ) a3 fullShare d)
        ∗ (iprop(owns (c : Thread nD τ) a1 fullShare x0 ∗ owns (c : Thread nD τ) a2 fullShare x1
            ∗ owns (c : Thread nD τ) a3 fullShare (out0_2 x0 x1)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0
    isplitr
    · ipureintro; rfl
    · iexact H0
  isplitl [H1]
  · iexists f1
    isplitr
    · ipureintro; rfl
    · iexact H1
  iexists _
  isplitr
  swap
  · iexact H2
  ipureintro
  exact View.read_writes_eq_canon _ _ _ (fills0_2 _)

/-! ## The obligation at a point -/

/-- What the pipeline hands the body at point `t`, window by window: the invariant, what the core owes, and each
    window's current buffer at what it holds then. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it takes back: the same invariant and dues at the next point, each buffer at what the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 400000 in
/-- At any point the two input buffers read their blocks, so `run0` applies with `x0`, `x1` those blocks; the output
    buffer's prior contents are whatever they are. The invariant and the dues do not depend on the point and are not
    read by the body. -/
theorem at_point0 (c : Dev nD) (t : Fin cfg0.N) :
    pre0 V c t ⊢ wp frame (wpE (defs₀ (F := F)) Variants.none c none) Set.univ (bodyAt0 t) (fun _ => post0 V c t) := by
  unfold pre0 post0 bodyAt0
  simp only [in0_0, in0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (run0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of call 0 at proof data `dat0`: the conjunction over the three windows written out, it is
    `at_point0` at every point. -/
theorem body_obligation0 (c : Dev nD) : BodyObligation (dat0 (F := F) V c) (defs₀ (F := F)) Variants.none () Set.univ := fun t => by
  rw [bigSep_W0, bigSep_W0]
  exact at_point0 V c t

end Cert.KernelIdeal.Hand

end
-- ==== Proof.IdealBody1.lean ====
/-
  The body of the pairwise stage at a grid point.

  At point t the body reads two blocks of the one array m: the query block (rows 32 t … 32 t + 31, window 0)
  and the key block (all 256 rows, window 1). The key window's block index never moves, so its buffer holds the
  same 256 rows at every point although they arrive only once; the query window's buffer holds a fresh block at
  each point. From the two blocks the body forms, in three consecutive stretches of pure arithmetic, the running
  sum over the sixteen kernel values k of |q p f k − kk j f k| (four terms, then five, then six, the last term
  added at the end), and from it the tile Σ_j exp (−Σ_k …) − 1, which it stores over the whole 32 × 128 output
  block in one store. Composing the stretches gives the single function body1 of the two blocks. Because that
  one store covers every index of the output block, what the block held before (which the body also loads,
  without using the value) leaves no trace: the buffer afterwards reads as the stored tile alone.
-/
import proofs.«158119_j19593640804692_1_alg».proof.Proof.IdealData
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the two input buffers hold when the body runs -/

/-- The query window's buffer holds rows 32 t … 32 t + 31 of m at point t: the block is whole (nothing of it lies
    outside the array), the body leaves it as it found it, and a fetch puts exactly the block there. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The key window's buffer holds all of m at every point. It is filled at the first point only; at a later
    point its block index is the one of the point before, so the block left there is still this point's. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The one store covers the output block -/

/-- The rectangle of the body's store is the whole 32 × 128 block: every index lies in it. -/
theorem cover1_2 (p : Vec F S32x128 .f32) (y : S32x128.Idx) :
    ∃ pc ∈ ([⟨r1_2, p⟩] : List (View.Piece (Elt F) S32x128 .f32)), y ∈ pc.1.set :=
  View.cover_of_tiled [⟨r1_2, p⟩] S32x128.size (by rfl) y

/-! ## The body on three whole buffers -/

/-- Run on three whole buffers, the first reading x0, the second x1, the third anything, the body ends with the
    first two as they were and the third reading the tile body1 of the two loaded blocks. -/
theorem sound_kernel1 (c : Dev nD) (E : Set ℕ) (i : grid1.Coords)
    (arg1 : Memref sig .tc .vmem S32x128x16 .f32) (harg1 : arg1.IsWhole)
    (arg2 : Memref sig .tc .vmem S256x128x16 .f32) (harg2 : arg2.IsWhole)
    (arg3 : Memref sig .tc .vmem S32x128 .f32) (harg3 : arg3.IsWhole)
    (x0 : Vec F S32x128x16 .f32) (x1 : Vec F S256x128x16 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (out1_2 x0 x1)) -∗ K ⟨⟩))
      ⊢ wp frame (wpE (defs₀ (F := F)) Variants.none c none) E
          (cc1__pairwise_kernel i arg1 harg1 arg2 harg2 arg3 harg3) K := by
  unfold owns
  iintro ⟨⟨%f0, %hf0, H0⟩, ⟨%f1, %hf1, H1⟩, ⟨%d2, %f2, -, H2⟩, Hk⟩
  subst hf0 hf1
  sl_unfold [cc1__pairwise_kernel]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_run_names
  unfold out1_2 body1
  exact View.read_writes_eq_canon _ _ _ (cover1_2 _)

/-! ## The body at a grid point -/

/-- What the body is handed at point t: the invariant, what the core owes, and each window's current buffer —
    the two inputs' at whatever a buffer nothing has filled held (d) carried through the schedule, the output's
    likewise. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What it hands back: the same invariant and debts one point on, each buffer at what the proof data says the
    body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At every point the two input buffers read the query block and the key block of m, whatever d was; so the body
    runs as on three whole buffers and leaves the tile body1 of those two blocks in the output buffer. The
    invariant and the debts do not depend on the point and are handed through untouched. -/
theorem sound_body1 (c : Dev nD) (t : Fin cfg1.N) :
    bodyPre1 V c t ⊢ wp frame (wpE (defs₀ (F := F)) Variants.none c none) Set.univ (bodyAt1 t)
      (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨Hinv, Hdebt, ⟨%d0, Hq⟩, ⟨%d1, Hk⟩, ⟨%d2, Hout⟩⟩
  iapply (sound_kernel1 c Set.univ _ _ _ _ _ _ _ (iblk1 V c 0 t) (iblk1 V c 1 t) _)
  isplitl [Hq]; · iexact Hq
  isplitl [Hk]; · iexact Hk
  isplitl [Hout]; · iexists _; iexact Hout
  iintro ⟨Hq, Hk, Hout⟩
  isplitl [Hinv]; · iexact Hinv
  isplitl [Hdebt]; · iexact Hdebt
  isplitl [Hq]; · iexact Hq
  isplitl [Hk]; · iexact Hk
  iexact Hout

/-- The pairwise stage's body obligation: the three windows taken one by one, it is the statement above at every
    one of the eight points. -/
theorem body_obligation1 (c : Dev nD) : BodyObligation (dat1 (F := F) V c) (defs₀ (F := F)) Variants.none () Set.univ :=
  fun t => by
    rw [bigSep_W1, bigSep_W1]
    exact sound_body1 V c t

end Cert.KernelIdeal.Hand

end
-- ==== Proof.IdealSegs.lean ====
/-
  The two pallas_calls as regions of @main, over thread states that hold EVERY unscoped buffer of the core at a named
  valuation. Between two items of @main the valuation is: the launch memory, then each host stretch applied, then at
  each call's exit its output array replaced by what the call's write-backs leave (`Dat.arrAt … N`).

  Call 0's three windows read and write three distinct arrays, each held whole. Call 1's two INPUT windows read one
  array, `main_v3`: at the call's entry the core's full share of that buffer is split, the left half to window 0 and
  the right half to window 1 (both at the same contents), and at the exit the two halves are joined again; the output
  array `main_v4` is held whole throughout.
-/
import proofs.«158119_j19593640804692_1_alg».proof.Proof.IdealData
import proofs.«158119_j19593640804692_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the calls leave, and the valuations between items -/

/-- The buffers as call 0 finds them: the launch memory after the two format changes. -/
abbrev E1 : (c : Dev nD) → (b : Ref sig .tc) → Buf (Elt F) ((c : Thread nD τ).loc b) := fun c b => Gen.V1 m c b

/-- What call 0 leaves in `main_v2`: its one block written back. -/
def o2 (c : Dev nD) : Buf (Elt F) ((c : Thread nD τ).loc main_v2) := (dat0 (E1 m) c).arrAt 2 cfg0.N

/-- The buffers after call 0, and after the reshape that follows it (as call 1 finds them). -/
abbrev X2 (c : Dev nD) : Valuation τ sig (Elt F) := Function.update (Gen.V1 m c) main_v2 (o2 m c)
abbrev X3 (c : Dev nD) : Valuation τ sig (Elt F) := StableHlo.after hostOps1 (X2 m c)
abbrev E3 : (c : Dev nD) → (b : Ref sig .tc) → Buf (Elt F) ((c : Thread nD τ).loc b) := fun c b => X3 m c b

/-- What call 1 leaves in `main_v4`: its eight tiles written back. -/
def o4 (c : Dev nD) : Buf (Elt F) ((c : Thread nD τ).loc main_v4) := (dat1 (E3 m) c).arrAt 2 cfg1.N

/-- The contents the two calls leave, in the form the conditional frame takes them. -/
def outs : Gen.Outs (F := F) := fun _ r c =>
  if h2 : r = main_v2 then h2 ▸ o2 m c else if h4 : r = main_v4 then h4 ▸ o4 m c else Gen.V0 m c r

theorem outs_2 (c : Dev nD) : outs m 2 main_v2 c = o2 m c := by
  unfold outs; rw [dif_pos rfl]
theorem outs_4 (c : Dev nD) : outs m 4 main_v4 c = o4 m c := by
  unfold outs; rw [dif_neg (by decide), dif_pos rfl]

theorem V2_eq (c : Dev nD) : Gen.V2 m (outs m) c = X2 m c := by
  show Function.update (Gen.V1 m c) main_v2 (outs m 2 main_v2 c) = _
  rw [outs_2]
theorem V3_eq (c : Dev nD) : Gen.V3 m (outs m) c = X3 m c := by
  show StableHlo.after hostOps1 (Gen.V2 m (outs m) c) = _
  rw [V2_eq]

/-! ## The proof data family and what rides beside the buffers -/

/-- Every call's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item of @main: the core's generator register at some state, and
    its debts to other cores, none. -/
abbrev R (c : Dev nD) : sProp 𝕄 := iprop((∃ r, prngReg c r) ∗ ∃ W, owes (c : Thread nD τ) (0 : CellTallies nD τ sig Unit) W)

/-! ## Call 0 -/

/-- At call 0's exit each of its arrays holds what the valuation after it says: the inputs as entered, the output
    what the one write-back left. -/
theorem hF0 (c : Dev nD) : ∀ w : Fin cfg0.W, (dat0 (E1 m) c).arrAt w cfg0.N = Gen.V2 m (outs m) c (Pipeline.arrRef spec0 w)
  | ⟨0, _⟩ => ((dat0 (E1 m) c).arrAt_in 0 rfl _).trans ((A_eq0 (E1 m) c 0).trans (Gen.V2_of m (outs m) c main_v0 (by decide)).symm)
  | ⟨1, _⟩ => ((dat0 (E1 m) c).arrAt_in 1 rfl _).trans ((A_eq0 (E1 m) c 1).trans (Gen.V2_of m (outs m) c main_v1 (by decide)).symm)
  | ⟨2, _⟩ => by
      show _ = Function.update (Gen.V1 m c) main_v2 (outs m 2 main_v2 c) main_v2
      rw [Function.update_self, outs_2]; rfl

/-- Every other buffer is as call 0 found it. -/
theorem hrest0 (c : Dev nD) : ∀ b : Ref sig .tc, b ∉ Finset.univ.image (Pipeline.arrRef spec0) → Gen.V2 m (outs m) c b = Gen.V1 m c b :=
  fun b hb => Gen.V2_of m (outs m) c b fun h =>
    hb (Finset.mem_image.mpr ⟨2, Finset.mem_univ _, (List.mem_singleton.mp h).symm ▸ rfl⟩)

set_option backward.isDefEq.respectTransparency.types false in
/-- Call 0 as a region: entered from every unscoped buffer at the valuation after the format changes, left at that
    valuation with `main_v2` replaced. Its three arrays are split out of the unscoped buffers at entry and put back at
    exit; the generator register goes into the body's invariant and comes back; nothing is owed. -/
def reg0 (hb : ∀ c, BodyObligation (dat0 (F := F) (E1 m) c) (defs₀ (F := F)) Variants.none () Set.univ) :
    Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 1: two input windows on one array -/

/-- The buffers behind call 1's arrays are two: `main_v3`, read by both input windows, and the output `main_v4`. -/
theorem arrImage1 : (Finset.univ.image (Pipeline.arrRef spec1) : Finset (Ref sig .tc)) = insert main_v3 {main_v4} := by decide

/-- Those two buffers, each whole at the full share. -/
theorem arrBufs1_eq (c : Dev nD) (W : (b : Ref sig .tc) → Buf (Elt F) ((c : Thread nD τ).loc b)) :
    (Pipeline.arrBufs spec1 c W : sProp 𝕄)
      = iprop((((c : Thread nD τ).loc main_v3) ↦{fullShare} W main_v3) ∗ (((c : Thread nD τ).loc main_v4) ↦{fullShare} W main_v4)) := by
  unfold Pipeline.arrBufs
  rw [arrImage1, bigSep_insert (by decide), bigSep_singleton]
  rfl

/-- Call 1's arrays at contents `G`, window by window: window 0 holds `main_v3` at the left half of the full share,
    window 1 holds the same buffer at the right half, window 2 holds `main_v4` whole. -/
theorem arrays1_eq (V : (c : Dev nD) → (b : Ref sig .tc) → Buf (Elt F) ((c : Thread nD τ).loc b)) (c : Dev nD)
    (G : (w : Fin cfg1.W) → Buf (Elt F) ((cfg1.win w).arr.view.loc (c.tc : Thread nD τ))) :
    ((dat1 V c).arrays G : sProp 𝕄)
      = iprop((((c : Thread nD τ).loc main_v3) ↦{fullShare.left} G 0) ∗ (((c : Thread nD τ).loc main_v3) ↦{fullShare.right} G 1)
          ∗ (((c : Thread nD τ).loc main_v4) ↦{fullShare} G 2)) := by
  unfold Dat.arrays
  rw [bigSep_W1, (arr_whole1 0).set_eq_univ, (arr_whole1 2).set_eq_univ]
  rfl

/-- ENTRY: the full share of `main_v3` is dealt to the two windows that read it. -/
theorem arrays1_of_arrBufs (V : (c : Dev nD) → (b : Ref sig .tc) → Buf (Elt F) ((c : Thread nD τ).loc b)) (c : Dev nD)
    (W : (b : Ref sig .tc) → Buf (Elt F) ((c : Thread nD τ).loc b))
    (G : (w : Fin cfg1.W) → Buf (Elt F) ((cfg1.win w).arr.view.loc (c.tc : Thread nD τ)))
    (h0 : G 0 = W main_v3) (h1 : G 1 = W main_v3) (h2 : G 2 = W main_v4) :
    (Pipeline.arrBufs spec1 c W : sProp 𝕄) ⊢ (dat1 V c).arrays G := by
  rw [arrBufs1_eq, arrays1_eq, h0, h1, h2]
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- EXIT: the two halves, at one contents, are the buffer whole again. -/
theorem arrBufs1_of_arrays (V : (c : Dev nD) → (b : Ref sig .tc) → Buf (Elt F) ((c : Thread nD τ).loc b)) (c : Dev nD)
    (W : (b : Ref sig .tc) → Buf (Elt F) ((c : Thread nD τ).loc b))
    (G : (w : Fin cfg1.W) → Buf (Elt F) ((cfg1.win w).arr.view.loc (c.tc : Thread nD τ)))
    (h0 : G 0 = W main_v3) (h1 : G 1 = W main_v3) (h2 : G 2 = W main_v4) :
    ((dat1 V c).arrays G : sProp 𝕄) ⊢ Pipeline.arrBufs spec1 c W := by
  rw [arrBufs1_eq, arrays1_eq, h0, h1, h2]
  iintro ⟨Hl, Hr, H4⟩
  isplitl [Hl Hr]
  · iapply (pointsTo_share (PosShare.mem_left_op_right fullShare)).2
    isplitl [Hl]; · iexact Hl
    iexact Hr
  iexact H4

/-- At call 1's exit each of its arrays holds what the valuation after it says: the two input windows' common array
    as entered, the output what the eight write-backs left. -/
theorem hF1_in (c : Dev nD) : (dat1 (E3 m) c).arrAt 0 cfg1.N = Gen.V4 m (outs m) c main_v3 ∧ (dat1 (E3 m) c).arrAt 1 cfg1.N = Gen.V4 m (outs m) c main_v3 :=
  have e : Gen.V4 m (outs m) c main_v3 = X3 m c main_v3 := (Gen.V4_of m (outs m) c main_v3 (by decide)).trans (congrFun (V3_eq m c) _)
  ⟨((dat1 (E3 m) c).arrAt_in 0 rfl _).trans ((A_eq1 (E3 m) c 0).trans e.symm),
   ((dat1 (E3 m) c).arrAt_in 1 rfl _).trans ((A_eq1 (E3 m) c 1).trans e.symm)⟩

theorem hF1_out (c : Dev nD) : (dat1 (E3 m) c).arrAt 2 cfg1.N = Gen.V4 m (outs m) c main_v4 := by
  show _ = Function.update (Gen.V3 m (outs m) c) main_v4 (outs m 4 main_v4 c) main_v4
  rw [Function.update_self, outs_4]; rfl

/-- Every other buffer is as call 1 found it. -/
theorem hrest1 (c : Dev nD) : ∀ b : Ref sig .tc, b ∉ Finset.univ.image (Pipeline.arrRef spec1) → Gen.V4 m (outs m) c b = X3 m c b :=
  fun b hb => (Gen.V4_of m (outs m) c b fun h =>
    hb (Finset.mem_image.mpr ⟨2, Finset.mem_univ _, (List.mem_singleton.mp h).symm ▸ rfl⟩)).trans (congrFun (V3_eq m c) _)

/-- ENTRY, the buffers' part: every unscoped buffer at the valuation after the reshape is call 1's arrays at their
    entry contents (the common array's share dealt to the two windows) beside the other unscoped buffers. -/
theorem entry1 (c : Dev nD) : (StableHlo.held (c : Thread nD τ) (Pipeline.ucRefs τ sig) (Gen.V3 m (outs m) c) : sProp 𝕄)
    ⊢ iprop((dat1 (E3 m) c).arrays ((dat1 (E3 m) c).arrAt · 0) ∗ Pipeline.unscopedRest spec1 c (E3 m c)) := by
  rw [V3_eq, ← Pipeline.unscopedBufs_held (Ix := Unit) (Name := ℕ) (U := UR sig nD τ) (Lvl := ℕ) c (X3 m c),
    Pipeline.unscopedBufs_split₀ cfgs 1 winFacts₀1.arr_unscoped c (E3 m c)]
  exact sep_mono (arrays1_of_arrBufs (E3 m) c (E3 m c) _ (A_eq1 (E3 m) c 0) (A_eq1 (E3 m) c 1) (A_eq1 (E3 m) c 2)) .rfl

/-- The unscoped buffers that are none of call 1's arrays hold after the call what they held before it. -/
theorem rest1_eq (c : Dev nD) : (Pipeline.unscopedRest spec1 c (E3 m c) : sProp 𝕄)
    = Pipeline.unscopedRest spec1 c (fun b => Gen.V4 m (outs m) c b) := by
  unfold Pipeline.unscopedRest
  exact bigSep_congr fun b hb =>
    congrArg (fun x : Buf (Elt F) ((c : Thread nD τ).loc b) => (((c : Thread nD τ).loc b) ↦{fullShare} x : sProp 𝕄))
      (hrest1 m c b (Finset.mem_sdiff.mp hb).2).symm

/-- EXIT, the buffers' part: call 1's arrays at their final contents (the halves joined) and the other unscoped
    buffers are every unscoped buffer at the valuation after the call. -/
theorem exit1 (c : Dev nD) : iprop((dat1 (E3 m) c).arrays ((dat1 (E3 m) c).arrAt · cfg1.N) ∗ Pipeline.unscopedRest spec1 c (E3 m c))
    ⊢ (StableHlo.held (c : Thread nD τ) (Pipeline.ucRefs τ sig) (Gen.V4 m (outs m) c) : sProp 𝕄) := by
  rw [← Pipeline.unscopedBufs_held (Ix := Unit) (Name := ℕ) (U := UR sig nD τ) (Lvl := ℕ) c (Gen.V4 m (outs m) c),
    Pipeline.unscopedBufs_split₀ cfgs 1 winFacts₀1.arr_unscoped c (fun b => Gen.V4 m (outs m) c b), rest1_eq]
  exact sep_mono (arrBufs1_of_arrays (E3 m) c (fun b => Gen.V4 m (outs m) c b) _ (hF1_in m c).1 (hF1_in m c).2 (hF1_out m c)) .rfl

set_option backward.isDefEq.respectTransparency.types false in
/-- Call 1 as a region: entered from every unscoped buffer at the valuation after the reshape, left at that valuation
    with `main_v4` replaced. At entry the buffers behind its arrays are taken out of the unscoped buffers and
    `main_v3`'s full share is dealt to the two windows that read it; at exit the halves are joined and the buffers put
    back. -/
def reg1 (hb : ∀ c, BodyObligation (dat1 (F := F) (E3 m) c) (defs₀ (F := F)) Variants.none () Set.univ) :
    Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.IdealFrame.lean ====
/-
  The launch of the kernel program (this text is generic in the float instance): the two region records and the
  generated host segments put under the several-regions launch theorem. The core owes nothing and no level is
  assigned; beside the buffers ride only the generator register and the (empty) debts. The result is the frame: every
  weakly fair execution terminates, nothing faults, both argument arrays end as launched.
-/
import proofs.«158119_j19593640804692_1_alg».proof.Proof.IdealSegs

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipeline library's, at every call's staging cells. -/
abbrev u₀ : UR sig nD τ := initOf (Pipeline.cells cfgs cellOf_inj) (Pipeline.launchToks cfgs cellOf_inj)

/-- It yields the pipeline library's element and nothing else. -/
theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals beside the buffers makes the riding state on every core: the register as launched, no debts. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- At the end the riding state owes nothing. -/
theorem hE2 (c : Dev nD) : (R (F := F) c : sProp 𝕄) ⊢ (iprop(∃ W, owes (c : Thread nD τ) (0 : CellTallies nD τ sig Unit) W) : sProp 𝕄) := by
  iintro ⟨-, HO⟩; iexact HO

/-- THE FRAME: every weakly fair execution of @main terminates, nothing faults, both argument arrays end as launched. -/
theorem frame
    (hb0 : ∀ c, BodyObligation (dat0 (F := F) (E1 m) c) (defs₀ (F := F)) Variants.none () Set.univ)
    (hb1 : ∀ c, BodyObligation (dat1 (F := F) (E3 m) c) (defs₀ (F := F)) Variants.none () Set.univ) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () 𝒱₀ L lv (fun _ _ => rfl) ρ (outs m) (pdats m) 0 (fun _ => (BI.emp : sProp 𝕄)) u₀ (hu₀ (F := F))
    (fun _ c => R c) (hE0 ρ) hE2 (reg0 m hb0) (fun _ => .rfl) (fun _ => .rfl) (reg1 m hb1) (fun _ => .rfl) (fun _ => .rfl)

end Cert.KernelIdeal.Hand

end
-- ==== Proof.IdealRun.lean ====
/-
  The full run of the idealized kernel program: beyond the frame, every unscoped buffer ends at the last valuation
  (in particular the result `main_v5`), by the widened form of the conditional frame.
-/
import proofs.«158119_j19593640804692_1_alg».proof.Proof.IdealFrame
import proofs.«158119_j19593640804692_1_alg».proof.Proof.IdealRunCond

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE RUN: moreover every unscoped buffer ends at the last valuation. -/
theorem run_all
    (hb0 : ∀ c, BodyObligation (dat0 (F := F) (E1 m) c) (defs₀ (F := F)) Variants.none () Set.univ)
    (hb1 : ∀ c, BodyObligation (dat1 (F := F) (E3 m) c) (defs₀ (F := F)) Variants.none () Set.univ) : θ_run defs (onTc (τ := τ) (main (F := F))) ⟨m, fun _ => 0, ρ⟩ (fun r => ∀ c : Dev nD,
      ∀ b ∈ Pipeline.ucRefs τ sig, r.2.mem ((c : Thread nD τ).1, b) = Gen.V5 m (outs m) c b) :=
  run_cond m emb₁ () 𝒱₀ L lv (fun _ _ => rfl) ρ (outs m) (pdats m) 0 (fun _ => (BI.emp : sProp 𝕄)) u₀ (hu₀ (F := F))
    (fun _ c => R c) (hE0 ρ) hE2 (reg0 m hb0) (fun _ => .rfl) (fun _ => .rfl) (reg1 m hb1) (fun _ => .rfl) (fun _ => .rfl)

end Cert.KernelIdeal.Hand

end
-- ==== Proof.IdealHost.lean ====
/-
  What @main's host operations leave, read off the valuations: the two format changes before call 0, the reshape
  between the calls, and the concatenation after call 1.
-/
import proofs.«158119_j19593640804692_1_alg».proof.Proof.IdealSegs
import Idealize.ShloMosaic.Lib.StableHlo.Run

set_option maxRecDepth 16384

noncomputable section

namespace Cert.KernelIdeal.Hand

open Idealize.ShloMosaic Idealize.ShloMosaic.TcCoe
open Idealize.SL Idealize.SL.Sem
open Idealize.ShloMosaic.StableHlo
open Cert.KernelIdeal Cert.KernelIdeal.Gen

variable {F : FTy → Type} [FloatOps F]

variable (m : (ℓ : Loc nD τ sig) → Buf (Elt F) ℓ)

/-- Call 0's first operand: `x` changed to the narrower format. -/
theorem E1_main_v0 (c : Dev nD) :
    (E1 m c main_v0 : (⟨S256x512, .bf16⟩ : BufTy).Contents (Elt F))
      = truncf .bf16 (m ((c : Thread nD τ).loc main_arg0) : (⟨S256x512, .f32⟩ : BufTy).Contents (Elt F)) bitsLt_bf16_f32 := by
  show StableHlo.after hostOps0 (Gen.V0 m c) (Proc.devRef .tc main_v0) = _
  after_results

/-- Call 0's second operand: `T` changed to the narrower format. -/
theorem E1_main_v1 (c : Dev nD) :
    (E1 m c main_v1 : (⟨S512x2048, .bf16⟩ : BufTy).Contents (Elt F))
      = truncf .bf16 (m ((c : Thread nD τ).loc main_arg1) : (⟨S512x2048, .f32⟩ : BufTy).Contents (Elt F)) bitsLt_bf16_f32 := by
  show StableHlo.after hostOps0 (Gen.V0 m c) (Proc.devRef .tc main_v1) = _
  after_results

/-- Call 1's operand: what call 0 left, reshaped to 256 × 128 × 16. -/
theorem E3_main_v3 (c : Dev nD) :
    (E3 m c main_v3 : (⟨S256x128x16, .f32⟩ : BufTy).Contents (Elt F))
      = shapeCast S256x128x16 (o2 m c : (⟨S256x2048, .f32⟩ : BufTy).Contents (Elt F)) shapeCasts_S256x2048_S256x128x16 := by
  show StableHlo.after hostOps1 (X2 m c) (Proc.devRef .tc main_v3) = _
  after_results
  have e : X2 m c (Proc.devRef .tc main_v2) = o2 m c := by
    show Function.update (Gen.V1 m c) (Proc.devRef .tc main_v2) (o2 m c) (Proc.devRef .tc main_v2) = _
    exact Function.update_self _ _ _
  rw [e]; rfl

/-- The result: `x` beside what call 1 left, joined along the feature axis. -/
theorem V5_main_v5 (c : Dev nD) :
    (Gen.V5 m (outs m) c main_v5 : (⟨S256x640, .f32⟩ : BufTy).Contents (Elt F))
      = concatenate S256x640 1 [⟨S256x512, (m ((c : Thread nD τ).loc main_arg0) : (⟨S256x512, .f32⟩ : BufTy).Contents (Elt F))⟩,
          ⟨S256x128, (o4 m c : (⟨S256x128, .f32⟩ : BufTy).Contents (Elt F))⟩] concatenates_S256x512_S256x128_S256x640_d1 := by
  show StableHlo.after hostOps2 (Gen.V4 m (outs m) c) (Proc.devRef .tc main_v5) = _
  after_results
  have e0 : Gen.V4 m (outs m) c main_arg0 = m ((c : Thread nD τ).loc main_arg0) :=
    (Gen.V4_of m (outs m) c main_arg0 (by decide)).trans <| (Gen.V3_of m (outs m) c main_arg0 (by decide)).trans <|
      (Gen.V2_of m (outs m) c main_arg0 (by decide)).trans <| (Gen.V1_of m c main_arg0 (by decide)).trans rfl
  have e4 : Gen.V4 m (outs m) c main_v4 = o4 m c := by
    show Function.update (Gen.V3 m (outs m) c) main_v4 (outs m 4 main_v4 c) main_v4 = _
    rw [Function.update_self, outs_4]
  rw [e0, e4]

end Cert.KernelIdeal.Hand

end
-- ==== Proof.IdealValue0.lean ====
/-
  What call 0 leaves in its output array.

  Call 0 has one grid point, and at it every window's block is the whole of that window's array: each index map is
  constantly zero and each block has the array's extents, so an element of a block sits in the array at its own
  coordinates. Hence the two input blocks at the point are the arrays `main_v0` and `main_v1` themselves; the body's one
  store, through the rectangle that is the whole output block, leaves the product payload of those two arrays; the
  point's write-back puts that block over every index of `main_v2`; and so after the grid `main_v2` holds the product
  payload of the two whole input arrays.
-/
import proofs.«158119_j19593640804692_1_alg».proof.Proof.IdealData
import Idealize.ShloMosaic.Lib.Pipeline.Value

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-- The rank-two offsets of a whole-block rectangle are zero on both axes. -/
theorem zero_offsets2 : (![0, 0] : Fin 2 → Nat) = fun _ => 0 := funext fun a => by fin_cases a <;> rfl

/-- Every window of call 0 has block index zero on both axes at every point of the grid. -/
theorem block_index0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The input blocks are the input arrays -/

/-- Window 0's block at any point is all of `main_v0`: a block element's place in the array is block index × block
    extent + its own coordinate, and the block index is zero. -/
theorem xblock_whole (c : Dev nD) (t : Fin cfg0.N) : (iblk0 V c 0 t : Vec F S256x512 .bf16) = V c main_v0 := by
  obtain ⟨e0, e1, -⟩ := block_index0 t
  funext y
  show V c main_v0 (((cfg0.win 0).blk t).view.emb y) = V c main_v0 y
  refine congrArg (V c main_v0) (funext fun a => Fin.ext ?_)
  match a with
  | ⟨0, _⟩ => show win0_0.index t (0 : Fin 2) * 256 + 1 * (y 0).val = (y 0).val; omega
  | ⟨1, _⟩ => show win0_0.index t (1 : Fin 2) * 512 + 1 * (y 1).val = (y 1).val; omega

/-- Window 1's block at any point is all of `main_v1`. -/
theorem Tblock_whole (c : Dev nD) (t : Fin cfg0.N) : (iblk0 V c 1 t : Vec F S512x2048 .bf16) = V c main_v1 := by
  obtain ⟨-, -, e2, e3, -⟩ := block_index0 t
  funext y
  show V c main_v1 (((cfg0.win 1).blk t).view.emb y) = V c main_v1 y
  refine congrArg (V c main_v1) (funext fun a => Fin.ext ?_)
  match a with
  | ⟨0, _⟩ => show win0_1.index t (0 : Fin 2) * 512 + 1 * (y 0).val = (y 0).val; omega
  | ⟨1, _⟩ => show win0_1.index t (1 : Fin 2) * 2048 + 1 * (y 1).val = (y 1).val; omega

/-! ## The write-back and the array after the grid -/

/-- What a point writes back is the output window's block of the product payload of the two whole input arrays. -/
theorem written0_2 (c : Dev nD) (t : Fin cfg0.N) :
    (dat0 V c).flushed 2 t = ((cfg0.win 2).blk t).view.read (Elt F) (k0_pay1 (V c main_v0) (V c main_v1)) := by
  show (cfg0.win 2).cut (grid0.coords t) ((dat0 V c).after 2 t) = _
  rw [after0_2]
  unfold out0_2
  rw [View.canon_unit_zero zero_offsets2]
  simp only [View.ld_unit_zero (S := S256x512) zero_offsets2, View.ld_unit_zero (S := S512x2048) zero_offsets2]
  rw [xblock_whole, Tblock_whole]
  obtain ⟨-, -, -, -, e4, e5⟩ := block_index0 t
  funext j
  show k0_pay1 (V c main_v0) (V c main_v1) j = k0_pay1 (V c main_v0) (V c main_v1) (((cfg0.win 2).blk t).view.emb j)
  refine congrArg (k0_pay1 (V c main_v0) (V c main_v1)) (funext fun a => Fin.ext ?_)
  match a with
  | ⟨0, _⟩ => show (j 0).val = win0_2.index t (0 : Fin 2) * 256 + 1 * (j 0).val; omega
  | ⟨1, _⟩ => show (j 1).val = win0_2.index t (1 : Fin 2) * 2048 + 1 * (j 1).val; omega

/-- Every index of `main_v2` lies in the block of the grid's one point, which writes back. -/
theorem covered0_2 (i : S256x2048.Idx) :
    ∃ t : Fin cfg0.N, (cfg0.win 2).flush t = true ∧ i ∈ ((cfg0.win 2).blk t).view.set := by
  refine ⟨t0_0, flush0_2 t0_0, ?_⟩
  show i ∈ ((View.whole main_v2).slice (win0_2.rect t0_0)).set
  rw [View.set_slice_whole, Rect.mem_set_unit]
  obtain ⟨-, -, -, -, e4, e5⟩ := block_index0 t0_0
  have h0 : (i 0).val < 256 := (i 0).isLt
  have h1 : (i 1).val < 2048 := (i 1).isLt
  intro a
  match a with
  | ⟨0, _⟩ => show win0_2.index t0_0 (0 : Fin 2) * 256 ≤ (i 0).val ∧ (i 0).val < win0_2.index t0_0 (0 : Fin 2) * 256 + 256; omega
  | ⟨1, _⟩ => show win0_2.index t0_0 (1 : Fin 2) * 2048 ≤ (i 1).val ∧ (i 1).val < win0_2.index t0_0 (1 : Fin 2) * 2048 + 2048; omega

/-- After call 0's grid, `main_v2` holds the product payload of `main_v0` and `main_v1`. -/
theorem final0 (c : Dev nD) : (dat0 (F := F) V c).arrAt 2 cfg0.N = k0_pay1 (V c main_v0) (V c main_v1) :=
  (dat0 V c).arrAt_eq_of_cover 2 (k0_pay1 (V c main_v0) (V c main_v1)) (fun t _ => written0_2 V c t) covered0_2

end Cert.KernelIdeal.Hand

end
-- ==== Proof.Spec.lean ====
/-
  The mathematics both programs compute, as functions of curried index arguments.

  `prod x T i c = Σ_k x i k · T k c`: one entry of the matrix product.
  `pairwise q kk p f = Σ_j exp (−Σ_k |q p f k − kk j f k|) − 1`: for a query row `p` and feature `f`, the sum over all 256
  key rows `j` of the exponential of minus the L1 distance between the two rows' 16 kernel values, less one (the
  absolute value is `max a (−a)` on the extended reals; the literal `1.0` is kept as its bit pattern, the same word in
  both programs, never evaluated).
-/
import Idealize.ShloMosaic.PureOps.Ideal
import Idealize.ShloMosaic.PureOps.Ideal.Laws
import Idealize.ShloMosaic.Lib.ValueIdx

noncomputable section

namespace Cert.Spec

open Idealize.ShloMosaic

/-- One entry of the product of a 256 × 512 and a 512 × 2048 matrix. -/
def prod (x : Fin 256 → Fin 512 → EReal) (T : Fin 512 → Fin 2048 → EReal) (i : Fin 256) (c : Fin 2048) : EReal :=
  ∑ k : Fin 512, x i k * T k c

/-- The absolute value on the extended reals, as the programs compute it. -/
def absE (a : EReal) : EReal := max a (-a)

/-- The L1 distance between query row `p` and key row `j` at feature `f`, over the 16 kernels. -/
def dist {A : ℕ} (q : Fin A → Fin 128 → Fin 16 → EReal) (kk : Fin 256 → Fin 128 → Fin 16 → EReal)
    (p : Fin A) (j : Fin 256) (f : Fin 128) : EReal :=
  ∑ k : Fin 16, absE (q p f k - kk j f k)

/-- `Σ_j exp (−dist p j f) − 1`. -/
def pairwise {A : ℕ} (q : Fin A → Fin 128 → Fin 16 → EReal) (kk : Fin 256 → Fin 128 → Fin 16 → EReal)
    (p : Fin A) (f : Fin 128) : EReal :=
  (∑ j : Fin 256, Ideal.exp (-(dist q kk p j f))) - Ideal.ofBits .f32 0x3F800000#32

end Cert.Spec

end
-- ==== Proof.IdealValue1.lean ====
/-
  The output array of the pairwise stage after its eight grid points, as one function of m, the contents of the
  stage's input array when the stage is entered.

  Point t writes back rows 32 t … 32 t + 31 of the output, the tile the body computes from two blocks of m: the
  query block, rows 32 t … 32 t + 31, and the key block, all 256 rows. The tile's entry at row p and feature f is
  Σ_j exp (−Σ_k |q p f k − kk j f k|) − 1 with q the query block and kk the key block. That expression reads q at
  row p only, and row p of the query block is row 32 t + p of m, while the key block is m itself; so the entry is
  the same expression with m in both places at row 32 t + p — the entry of G4 m at the place of the output array
  the tile's entry is written to. Every row r of the output lies in exactly the block of point r / 32, so the
  eight write-backs leave the whole array at G4 m.
-/
import proofs.«158119_j19593640804692_1_alg».proof.Proof.IdealData
import proofs.«158119_j19593640804692_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- call 1's output array after the run, as one function of the contents of main_v3 at the call's entry -/
def G4 (M3 : Vec Ideal S256x128x16 .f32) : Vec Ideal S256x128 .f32 := fun y =>
  Cert.Spec.pairwise (fun a b k => M3 (ValueIdx.ix3 a b k)) (fun a b k => M3 (ValueIdx.ix3 a b k)) (y 0) (y 1)

/-! ## The pairwise expression depends on one query row and on the keys -/

/-- Two query families that agree along one row each (row p of the first at feature f, row p' of the second at
    feature f'), over two key families that agree at those features, give the same pairwise value there. -/
theorem pairwise_row_congr {A B : ℕ}
    (q : Fin A → Fin 128 → Fin 16 → EReal) (q' : Fin B → Fin 128 → Fin 16 → EReal)
    (kk kk' : Fin 256 → Fin 128 → Fin 16 → EReal) (p : Fin A) (p' : Fin B) (f f' : Fin 128)
    (hq : ∀ k, q p f k = q' p' f' k) (hk : ∀ j k, kk j f k = kk' j f' k) :
    Cert.Spec.pairwise q kk p f = Cert.Spec.pairwise q' kk' p' f' := by
  unfold Cert.Spec.pairwise Cert.Spec.dist
  simp only [hq, hk]

/-! ## The offsets of the whole-block rectangles are zero -/

theorem offsets2_zero1 : (![0, 0] : Fin 2 → Nat) = fun _ => 0 := funext fun a => by fin_cases a <;> rfl
theorem offsets3_zero1 : (![0, 0, 0] : Fin 3 → Nat) = fun _ => 0 := funext fun a => by fin_cases a <;> rfl

/-! ## The block indices at a grid point -/

/-- At point t the query window and the output window are at block t of their leading axis and block 0 of the
    others; the key window is at block 0 of every axis. -/
theorem block_indices1 : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

/-! ## The tile at one entry, over any two blocks that sit in M3 as the windows' blocks sit in m -/

/-- Let x0 be rows 32 n … 32 n + 31 of M3 and x1 be M3. Then the tile of x0 and x1 at entry y is G4 M3 at the index
    i whose row is 32 n + (row of y) and whose feature is y's: the tile's entry is the pairwise expression of the two
    blocks at y's row and feature, that expression reads the query block along that one row only, and the row is
    row 32 n + (row of y) of M3. -/
theorem tile_entry1
    (hpay : ∀ (v0 : Vec Ideal S32x128x16 .f32) (v2 : Vec Ideal S256x128x16 .f32) (p : Fin 32) (f : Fin 128),
      body1 (F := Ideal) v0 v2 (ValueIdx.ix2 p f)
        = Cert.Spec.pairwise (fun a b k => v0 (ValueIdx.ix3 a b k)) (fun a b k => v2 (ValueIdx.ix3 a b k)) p f)
    (x0 : Vec Ideal S32x128x16 .f32) (x1 M3 : Vec Ideal S256x128x16 .f32)
    (y : S32x128.Idx) (i : S256x128.Idx) (n : ℕ)
    (h0 : (i 0).val = 32 * n + (y 0).val) (h1 : (i 1).val = (y 1).val)
    (hx0 : ∀ (p : Fin 32) (f : Fin 128) (k : Fin 16) (r : Fin 256), r.val = 32 * n + p.val →
      x0 (ValueIdx.ix3 p f k) = M3 (ValueIdx.ix3 r f k))
    (hx1 : ∀ (j : Fin 256) (f : Fin 128) (k : Fin 16), x1 (ValueIdx.ix3 j f k) = M3 (ValueIdx.ix3 j f k)) :
    body1 (F := Ideal) x0 x1 y = G4 M3 i := by
  have hf : (y 1 : Fin 128) = (i 1 : Fin 128) := Fin.ext h1.symm
  refine (congrArg (body1 (F := Ideal) x0 x1) (ValueIdx.eq_ix2 y)).trans ?_
  refine (hpay x0 x1 (y 0) (y 1)).trans ?_
  exact pairwise_row_congr _ _ _ _ (y 0) (i 0) (y 1) (i 1)
    (fun k => (hx0 (y 0) (y 1) k (i 0) h0).trans (congrArg (fun g : Fin 128 => M3 (ValueIdx.ix3 (i 0) g k)) hf))
    (fun j k => (hx1 j (y 1) k).trans (congrArg (fun g : Fin 128 => M3 (ValueIdx.ix3 j g k)) hf))

/-! ## The two input blocks, entry by entry -/

/-- Entry x of the query block at point t is the entry of m at row 32 t + (row of x), same feature, same kernel
    value. -/
theorem query_block_entry1 (c : Dev nD) (t : Fin cfg1.N) (x : S32x128x16.Idx) (i : S256x128x16.Idx)
    (h0 : (i 0).val = 32 * t.val + (x 0).val) (h1 : (i 1).val = (x 1).val) (h2 : (i 2).val = (x 2).val) :
    (iblk1 V c 0 t : Vec Ideal S32x128x16 .f32) x = (V c main_v3 : Vec Ideal S256x128x16 .f32) i := by
  obtain ⟨e0, e1, e2, -, -, -, -, -⟩ := block_indices1 t
  unfold iblk1
  rw [View.read_apply]
  show V c main_v3 _ = V c main_v3 _
  congr 1
  funext a
  apply Fin.ext
  match a with
  | ⟨0, _⟩ => show win1_0.index t (0 : Fin 3) * 32 + 1 * (x 0).val = (i 0).val; omega
  | ⟨1, _⟩ => show win1_0.index t (1 : Fin 3) * 128 + 1 * (x 1).val = (i 1).val; omega
  | ⟨2, _⟩ => show win1_0.index t (2 : Fin 3) * 16 + 1 * (x 2).val = (i 2).val; omega

/-- The key block at any point is m. -/
theorem key_block_entry1 (c : Dev nD) (t : Fin cfg1.N) (x : S256x128x16.Idx) :
    (iblk1 V c 1 t : Vec Ideal S256x128x16 .f32) x = (V c main_v3 : Vec Ideal S256x128x16 .f32) x := by
  obtain ⟨-, -, -, e0, e1, e2, -, -⟩ := block_indices1 t
  unfold iblk1
  rw [View.read_apply]
  show V c main_v3 _ = V c main_v3 _
  congr 1
  funext a
  apply Fin.ext
  match a with
  | ⟨0, _⟩ => show win1_1.index t (0 : Fin 3) * 256 + 1 * (x 0).val = (x 0).val; omega
  | ⟨1, _⟩ => show win1_1.index t (1 : Fin 3) * 128 + 1 * (x 1).val = (x 1).val; omega
  | ⟨2, _⟩ => show win1_1.index t (2 : Fin 3) * 16 + 1 * (x 2).val = (x 2).val; omega

/-! ## What a point writes back -/

/-- Point t writes back block t of G4 m. -/
theorem flushed1_eq
    (hpay : ∀ (v0 : Vec Ideal S32x128x16 .f32) (v2 : Vec Ideal S256x128x16 .f32) (p : Fin 32) (f : Fin 128),
      body1 (F := Ideal) v0 v2 (ValueIdx.ix2 p f)
        = Cert.Spec.pairwise (fun a b k => v0 (ValueIdx.ix3 a b k)) (fun a b k => v2 (ValueIdx.ix3 a b k)) p f)
    (c : Dev nD) (t : Fin cfg1.N) :
    (dat1 (F := Ideal) V c).flushed 2 t = ((cfg1.win 2).blk t).view.read (Elt Ideal) (G4 (V c main_v3)) := by
  show (cfg1.win 2).cut (grid1.coords t) ((dat1 (F := Ideal) V c).after 2 t) = _
  rw [after1_2]
  unfold out1_2
  rw [View.canon_unit_zero offsets2_zero1]
  simp only [View.ld_unit_zero (S := S32x128x16) offsets3_zero1, View.ld_unit_zero (S := S256x128x16) offsets3_zero1]
  obtain ⟨-, -, -, -, -, -, e0, e1⟩ := block_indices1 t
  funext y
  show body1 (F := Ideal) (iblk1 V c 0 t) (iblk1 V c 1 t) y = G4 (V c main_v3) (((cfg1.win 2).blk t).view.emb y)
  refine tile_entry1 hpay (iblk1 V c 0 t) (iblk1 V c 1 t) (V c main_v3) y (((cfg1.win 2).blk t).view.emb y) t.val ?_ ?_ ?_ ?_
  · show win1_2.index t (0 : Fin 2) * 32 + 1 * (y 0).val = 32 * t.val + (y 0).val; omega
  · show win1_2.index t (1 : Fin 2) * 128 + 1 * (y 1).val = (y 1).val; omega
  · exact fun p f k r hr => query_block_entry1 V c t (ValueIdx.ix3 p f k) (ValueIdx.ix3 r f k) hr rfl rfl
  · exact fun j f k => key_block_entry1 V c t (ValueIdx.ix3 j f k)

/-! ## The blocks cover the output array -/

/-- An index of the output array is in point t's block iff each coordinate is in the block's range on its axis. -/
theorem mem_out_block1 (t : Fin cfg1.N) (i : S256x128.Idx) :
    i ∈ ((cfg1.win 2).blk t).view.set ↔ ∀ a : Fin 2, win1_2.index t a * S32x128.size a ≤ (i a).val
      ∧ (i a).val < win1_2.index t a * S32x128.size a + S32x128.size a := by
  show i ∈ ((View.whole main_v4).slice (win1_2.rect t)).set ↔ _
  rw [View.set_slice_whole, Rect.mem_set_unit]
  exact Iff.rfl

/-- Row r of the output array lies in the block of point r / 32. -/
theorem out_rows_cover1 (i : S256x128.Idx) :
    ∃ t : Fin cfg1.N, (cfg1.win 2).flush t = true ∧ i ∈ ((cfg1.win 2).blk t).view.set := by
  have hN : grid1.N = 8 := N_1
  have hi0 : (i 0).val < 256 := (i 0).isLt
  have hi1 : (i 1).val < 128 := (i 1).isLt
  obtain ⟨t, ht⟩ : ∃ t : Fin grid1.N, t.val = (i 0).val / 32 := ⟨⟨(i 0).val / 32, by omega⟩, rfl⟩
  obtain ⟨-, -, -, -, -, -, e0, e1⟩ := block_indices1 t
  refine ⟨t, flush1_2 t, ?_⟩
  rw [mem_out_block1]
  intro a
  match a with
  | ⟨0, _⟩ =>
    show win1_2.index t (0 : Fin 2) * 32 ≤ (i 0).val ∧ (i 0).val < win1_2.index t (0 : Fin 2) * 32 + 32
    omega
  | ⟨1, _⟩ =>
    show win1_2.index t (1 : Fin 2) * 128 ≤ (i 1).val ∧ (i 1).val < win1_2.index t (1 : Fin 2) * 128 + 128
    omega

/-! ## The output array after the eight points -/

/-- Each point writes back its block of G4 m and the eight blocks cover the array: the array ends at G4 m. -/
theorem final1
    (hpay : ∀ (v0 : Vec Ideal S32x128x16 .f32) (v2 : Vec Ideal S256x128x16 .f32) (p : Fin 32) (f : Fin 128),
      body1 (F := Ideal) v0 v2 (ValueIdx.ix2 p f)
        = Cert.Spec.pairwise (fun a b k => v0 (ValueIdx.ix3 a b k)) (fun a b k => v2 (ValueIdx.ix3 a b k)) p f)
    (c : Dev nD) : (dat1 (F := Ideal) V c).arrAt 2 cfg1.N = G4 (V c main_v3) :=
  (dat1 (F := Ideal) V c).arrAt_eq_of_cover 2 (G4 (V c main_v3)) (fun t _ => flushed1_eq V hpay c t) out_rows_cover1

end Cert.KernelIdeal.Hand

end
-- ==== Proof.IdealPay0.lean ====
/-
  Call 0's stored value read at one output index.

  The body of the first call casts each loaded block to its own shape (the identity), and multiplies the two into a
  zero accumulator. At the ideal values that product, read at row `i` and column `cc`, is the plain sum over the 512
  contraction positions `k` of `x i k · T k cc`: no rounding and no chunk order is left in it, and the zero
  accumulator contributes `0 + ·`. The contraction index of the dot record has a single axis; the sum over it is
  re-indexed through that axis's coordinate, and the operand indices the record hands out are read coordinate by
  coordinate (row of the left operand = output row, column of the left = the contraction coordinate; row of the right
  = the contraction coordinate, column of the right = output column).
-/
import proofs.«158119_j19593640804692_1_alg».proof.Proof.IdealData
import proofs.«158119_j19593640804692_1_alg».proof.Proof.Spec
import Idealize.ShloMosaic.Lib.ValueIdx
import Idealize.ShloMosaic.PureOps.Ideal.Laws
import Idealize.ShloMosaic.Lib.Pipeline.Value

noncomputable section

namespace Cert.KernelIdeal.Hand

open Idealize.ShloMosaic
open Cert.KernelIdeal Cert.KernelIdeal.Gen

/-! ## The dot record's operand indices, one axis at a time -/

/-- The left operand's row is the output's row. -/
theorem lhs_k0_pay1_0 (i : S256x2048.Idx) (q : Cert.KernelIdeal.dot_S256x512_S512x2048_S256x2048_1_0_0_1_n_n.contr.Idx) :
    (Cert.KernelIdeal.dot_S256x512_S512x2048_S256x2048_1_0_0_1_n_n.lhsIdx i q 0).val = (i 0).val := by
  unfold DotDims.lhsIdx
  rw [dif_neg (show ¬(0 : Fin S256x512.rank) ∈ Cert.KernelIdeal.dot_S256x512_S512x2048_S256x2048_1_0_0_1_n_n.lhsBatch by decide), dif_pos (show (0 : Fin S256x512.rank) ∈ Cert.KernelIdeal.dot_S256x512_S512x2048_S256x2048_1_0_0_1_n_n.lhsNonContracting by decide)]
  rfl

/-- The left operand's column is the contraction coordinate. -/
theorem lhs_k0_pay1_1 (i : S256x2048.Idx) (q : Cert.KernelIdeal.dot_S256x512_S512x2048_S256x2048_1_0_0_1_n_n.contr.Idx) :
    (Cert.KernelIdeal.dot_S256x512_S512x2048_S256x2048_1_0_0_1_n_n.lhsIdx i q 1).val = (q ⟨0, by decide⟩).val :=
  Cert.KernelIdeal.dot_S256x512_S512x2048_S256x2048_1_0_0_1_n_n.lhsIdx_val_of_single rfl i q

/-- The right operand's row is the contraction coordinate. -/
theorem rhs_k0_pay1_0 (i : S256x2048.Idx) (q : Cert.KernelIdeal.dot_S256x512_S512x2048_S256x2048_1_0_0_1_n_n.contr.Idx) :
    (Cert.KernelIdeal.dot_S256x512_S512x2048_S256x2048_1_0_0_1_n_n.rhsIdx i q 0).val = (q ⟨0, by decide⟩).val :=
  Cert.KernelIdeal.dot_S256x512_S512x2048_S256x2048_1_0_0_1_n_n.rhsIdx_val_of_single rfl i q

/-- The right operand's column is the output's column. -/
theorem rhs_k0_pay1_1 (i : S256x2048.Idx) (q : Cert.KernelIdeal.dot_S256x512_S512x2048_S256x2048_1_0_0_1_n_n.contr.Idx) :
    (Cert.KernelIdeal.dot_S256x512_S512x2048_S256x2048_1_0_0_1_n_n.rhsIdx i q 1).val = (i 1).val := by
  unfold DotDims.rhsIdx
  rw [dif_neg (show ¬(1 : Fin S512x2048.rank) ∈ Cert.KernelIdeal.dot_S256x512_S512x2048_S256x2048_1_0_0_1_n_n.rhsBatch by decide), dif_pos (show (1 : Fin S512x2048.rank) ∈ Cert.KernelIdeal.dot_S256x512_S512x2048_S256x2048_1_0_0_1_n_n.rhsNonContracting by decide)]
  rfl

/-! ## The payload at an index -/

/-- The product the first call stores, at row `i` and column `cc`, is `∑ k, x i k · T k cc`. -/
theorem k0_pay1_apply (v0 : Vec Ideal S256x512 .bf16) (v2 : Vec Ideal S512x2048 .bf16) (i : Fin 256) (cc : Fin 2048) :
    k0_pay1 (F := Ideal) v0 v2 (ValueIdx.ix2 i cc)
      = Cert.Spec.prod (fun a b => v0 (ValueIdx.ix2 a b)) (fun a b => v2 (ValueIdx.ix2 a b)) i cc := by
  unfold k0_pay1 Cert.Spec.prod
  simp only [matmul]
  rw [shapeCast_self, shapeCast_self, Ideal.matmul_constant_zero_apply,
    ← Equiv.sum_comp (ValueIdx.contrEquiv1 Cert.KernelIdeal.dot_S256x512_S512x2048_S256x2048_1_0_0_1_n_n 512 rfl rfl).symm]
  refine Finset.sum_congr rfl fun k _ => ?_
  have hk := ValueIdx.contrEquiv1_symm_val Cert.KernelIdeal.dot_S256x512_S512x2048_S256x2048_1_0_0_1_n_n 512 rfl rfl k
  have el : Cert.KernelIdeal.dot_S256x512_S512x2048_S256x2048_1_0_0_1_n_n.lhsIdx (ValueIdx.ix2 i cc) ((ValueIdx.contrEquiv1 Cert.KernelIdeal.dot_S256x512_S512x2048_S256x2048_1_0_0_1_n_n 512 rfl rfl).symm k) = ValueIdx.ix2 i k := funext fun a => Fin.ext (by
    match a with
    | ⟨0, _⟩ => exact lhs_k0_pay1_0 _ _
    | ⟨1, _⟩ => exact (lhs_k0_pay1_1 _ _).trans hk)
  have er : Cert.KernelIdeal.dot_S256x512_S512x2048_S256x2048_1_0_0_1_n_n.rhsIdx (ValueIdx.ix2 i cc) ((ValueIdx.contrEquiv1 Cert.KernelIdeal.dot_S256x512_S512x2048_S256x2048_1_0_0_1_n_n 512 rfl rfl).symm k) = ValueIdx.ix2 k cc := funext fun a => Fin.ext (by
    match a with
    | ⟨0, _⟩ => exact (rhs_k0_pay1_0 _ _).trans hk
    | ⟨1, _⟩ => exact rhs_k0_pay1_1 _ _)
  rw [el, er]

end Cert.KernelIdeal.Hand

end
-- ==== Proof.IdealPay1.lean ====
/-
  The tile the pairwise stage stores, read at one entry.

  For a query block \`v0\` (32 rows of \`m\`) and the key block \`v2\` (all 256 rows), the stored tile at row \`p\` and
  feature \`f\` is \`Σ_j exp (−Σ_k |v0 (p, f, k) − v2 (j, f, k)|) − 1\`.  The body builds the inner sum in sixteen
  stages, one per kernel index \`k\`: it cuts the width-one slice \`k\` out of each block, spreads the query slice
  over the 256 key rows and the key slice over the 32 query rows, and adds the absolute difference to a running
  array indexed by (query row, key row, feature) that starts at zero.  Every operation of a stage is either
  pointwise or a re-indexing, so at an index \`(p, j, f)\` a stage adds \`|v0 (p, f, k) − v2 (j, f, k)|\`.  The sixteen
  stages associate to the left, which is the order in which a sum over \`Fin 16\` unrolls from its last term, so
  no rearrangement of extended reals is needed.
-/
import proofs.«158119_j19593640804692_1_alg».proof.Proof.IdealData
import proofs.«158119_j19593640804692_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.KernelIdeal.Hand

open Idealize.ShloMosaic Idealize.ShloMosaic.ValueIdx Cert.KernelIdeal Cert.KernelIdeal.Gen

/-! ## Re-indexing operations read at coordinates -/

section Layout
variable {α : Type}

/-- A rank-3 array cut to width one along its LAST axis at \`o\`: at \`(a, b, u)\` it is the source at \`(a, b, c)\`,
    \`c\` the coordinate \`o\`. -/
theorem slice3_last_apply {n0 n1 n2 : Nat} (o : Nat) (X : (⟨3, ![n0, n1, n2]⟩ : Shape).Idx → α)
    (h : (⟨3, ![n0, n1, n2]⟩ : Shape).Slices ![0, 0, o] ⟨3, ![n0, n1, 1]⟩)
    (a : Fin n0) (b : Fin n1) (u : Fin 1) (c : Fin n2) (hc : c.val = o) :
    extractStridedSlice ⟨3, ![n0, n1, 1]⟩ ![0, 0, o] X h (ix3 a b u) = X (ix3 a b c) :=
  extractStridedSlice_apply _ _ _ _ _ (fun ax => by
    match ax with
    | ⟨0, _⟩ => exact (Nat.zero_add _).symm
    | ⟨1, _⟩ => exact (Nat.zero_add _).symm
    | ⟨2, _⟩ =>
      show c.val = o + u.val
      have hu : u.val = 0 := by omega
      rw [hu, Nat.add_zero]; exact hc)

/-- An \`[a, b, 1]\` array cast to \`[a, b]\`: at \`(i, j)\` the operand at \`(i, j, u)\`, \`u\` the one coordinate of the unit axis. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) (u : Fin 1) :
    shapeCast ⟨2, ![a, b]⟩ x h (ix2 i j) = x (ix3 i j u) :=
  shapeCast_apply x h _ _ (by
    have hu : u.val = 0 := by omega
    rw [Shape.rowMajor_val_three, Shape.rowMajor_val_two]
    show (i.val * b + j.val) * 1 + u.val = i.val * b + j.val
    rw [hu, Nat.mul_one, Nat.add_zero])

/-- An \`[a, b]\` array cast to \`[a, 1, b]\`: at \`(i, u, j)\` the operand at \`(i, j)\`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The query column \`[32, 1, 128]\` spread over the 256 key rows: at \`(p, j, f)\` the operand at \`(p, 0, f)\`. -/
theorem spread_query_apply (x : S32x1x128.Idx → α) (h : S32x1x128.Broadcasts S32x256x128)
    (p : Fin 32) (j : Fin 256) (f : Fin 128) :
    broadcastTo S32x256x128 x h (ix3 p j f) = x (ix3 p (0 : Fin 1) f) :=
  broadcastTo_apply x h (ix3 p j f) (ix3 p (0 : Fin 1) f) fun ax =>
    match ax with
    | ⟨0, _⟩ => rfl
    | ⟨1, _⟩ => rfl
    | ⟨2, _⟩ => rfl

/-- The key rows \`[1, 256, 128]\` spread over the 32 query rows: at \`(p, j, f)\` the operand at \`(0, j, f)\`. -/
theorem spread_key_apply (x : S1x256x128.Idx → α) (h : S1x256x128.Broadcasts S32x256x128)
    (p : Fin 32) (j : Fin 256) (f : Fin 128) :
    broadcastTo S32x256x128 x h (ix3 p j f) = x (ix3 (0 : Fin 1) j f) :=
  broadcastTo_apply x h (ix3 p j f) (ix3 (0 : Fin 1) j f) fun ax =>
    match ax with
    | ⟨0, _⟩ => rfl
    | ⟨1, _⟩ => rfl
    | ⟨2, _⟩ => rfl

/-! ## The two operands of a stage -/

/-- A \`[32, 128]\` array made a column and spread: at \`(p, j, f)\` it is the array at \`(p, f)\`. -/
theorem query_spread_apply (y : S32x128.Idx → α) (h2 : S32x128.ShapeCasts S32x1x128)
    (hb : S32x1x128.Broadcasts S32x256x128) (p : Fin 32) (j : Fin 256) (f : Fin 128) :
    broadcastTo S32x256x128 (shapeCast S32x1x128 y h2) hb (ix3 p j f) = y (ix2 p f) :=
  (spread_query_apply _ hb p j f).trans (shapeCast_ab_a1b_apply y h2 p 0 f)

/-- Slice \`o\` of the query block as a \`[32, 128]\` array: at \`(p, f)\` the block at \`(p, f, c)\`. -/
theorem query_slice_apply (o : Nat) (x : S32x128x16.Idx → α) (hs : S32x128x16.Slices ![0, 0, o] S32x128x1)
    (h1 : S32x128x1.ShapeCasts S32x128) (p : Fin 32) (f : Fin 128) (c : Fin 16) (hc : c.val = o) :
    shapeCast S32x128 (extractStridedSlice S32x128x1 ![0, 0, o] x hs) h1 (ix2 p f) = x (ix3 p f c) :=
  (shapeCast_ab1_ab_apply _ h1 p f 0).trans (slice3_last_apply o x hs p f 0 c hc)

/-- The query operand of stage \`o\`: at \`(p, j, f)\` the query block at \`(p, f, c)\`. -/
theorem query_operand_apply (o : Nat) (x : S32x128x16.Idx → α) (hs : S32x128x16.Slices ![0, 0, o] S32x128x1)
    (h1 : S32x128x1.ShapeCasts S32x128) (h2 : S32x128.ShapeCasts S32x1x128) (hb : S32x1x128.Broadcasts S32x256x128)
    (p : Fin 32) (j : Fin 256) (f : Fin 128) (c : Fin 16) (hc : c.val = o) :
    broadcastTo S32x256x128 (shapeCast S32x1x128 (shapeCast S32x128 (extractStridedSlice S32x128x1 ![0, 0, o] x hs) h1) h2) hb
        (ix3 p j f) = x (ix3 p f c) :=
  (query_spread_apply _ h2 hb p j f).trans (query_slice_apply o x hs h1 p f c hc)

/-- A width-one \`[256, 128, 1]\` array made \`[1, 256, 128]\` and spread: at \`(p, j, f)\` it is the array at \`(j, f, 0)\`. -/
theorem key_spread_apply (z : S256x128x1.Idx → α) (h1 : S256x128x1.ShapeCasts S256x128)
    (h2 : S256x128.ShapeCasts S1x256x128) (hb : S1x256x128.Broadcasts S32x256x128)
    (p : Fin 32) (j : Fin 256) (f : Fin 128) :
    broadcastTo S32x256x128 (shapeCast S1x256x128 (shapeCast S256x128 z h1) h2) hb (ix3 p j f) = z (ix3 j f (0 : Fin 1)) :=
  (spread_key_apply _ hb p j f).trans
    ((shapeCast_ab_1ab_apply _ h2 0 j f).trans (shapeCast_ab1_ab_apply z h1 j f 0))

/-- The key operand of stage \`o\`: at \`(p, j, f)\` the key block at \`(j, f, c)\`. -/
theorem key_operand_apply (o : Nat) (x : S256x128x16.Idx → α) (hs : S256x128x16.Slices ![0, 0, o] S256x128x1)
    (h1 : S256x128x1.ShapeCasts S256x128) (h2 : S256x128.ShapeCasts S1x256x128) (hb : S1x256x128.Broadcasts S32x256x128)
    (p : Fin 32) (j : Fin 256) (f : Fin 128) (c : Fin 16) (hc : c.val = o) :
    broadcastTo S32x256x128 (shapeCast S1x256x128 (shapeCast S256x128 (extractStridedSlice S256x128x1 ![0, 0, o] x hs) h1) h2) hb
        (ix3 p j f) = x (ix3 j f c) :=
  (key_spread_apply _ h1 h2 hb p j f).trans (slice3_last_apply o x hs j f 0 c hc)

end Layout

/-! ## One stage -/

/-- The distance's summand at kernel index \`c\`: \`|x1 (p, f, c) − x3 (j, f, c)|\`. -/
abbrev gap (x1 : FVec Ideal S32x128x16 .f32) (x3 : FVec Ideal S256x128x16 .f32)
    (p : Fin 32) (j : Fin 256) (f : Fin 128) (c : Fin 16) : EReal :=
  Cert.Spec.absE (x1 (ix3 p f c) - x3 (ix3 j f c))

/-- A stage adds to the running array, at an index \`i\`, the absolute difference of its two operands there. -/
theorem stage_of (acc A B : FVec Ideal S32x256x128 .f32) (i : S32x256x128.Idx) (a b : EReal)
    (ha : A i = a) (hb : B i = b) :
    addf acc (absf (subf A B)) i = acc i + Cert.Spec.absE (a - b) := by
  show acc i + Cert.Spec.absE (A i - B i) = _
  rw [ha, hb]

/-- A whole stage \`o\` on the blocks \`x1\`, \`x3\`, read at \`(p, j, f)\`. -/
theorem stage_apply (o : Nat) (c : Fin 16) (hc : c.val = o)
    (x1 : FVec Ideal S32x128x16 .f32) (x3 : FVec Ideal S256x128x16 .f32) (acc : FVec Ideal S32x256x128 .f32)
    (hs1 : S32x128x16.Slices ![0, 0, o] S32x128x1) (h11 : S32x128x1.ShapeCasts S32x128)
    (h12 : S32x128.ShapeCasts S32x1x128) (hb1 : S32x1x128.Broadcasts S32x256x128)
    (hs3 : S256x128x16.Slices ![0, 0, o] S256x128x1) (h31 : S256x128x1.ShapeCasts S256x128)
    (h32 : S256x128.ShapeCasts S1x256x128) (hb3 : S1x256x128.Broadcasts S32x256x128)
    (p : Fin 32) (j : Fin 256) (f : Fin 128) :
    addf acc (absf (subf
        (broadcastTo S32x256x128 (shapeCast S32x1x128 (shapeCast S32x128 (extractStridedSlice S32x128x1 ![0, 0, o] x1 hs1) h11) h12) hb1)
        (broadcastTo S32x256x128 (shapeCast S1x256x128 (shapeCast S256x128 (extractStridedSlice S256x128x1 ![0, 0, o] x3 hs3) h31) h32) hb3)))
      (ix3 p j f) = acc (ix3 p j f) + gap x1 x3 p j f c :=
  stage_of _ _ _ _ _ _ (query_operand_apply o x1 hs1 h11 h12 hb1 p j f c hc)
    (key_operand_apply o x3 hs3 h31 h32 hb3 p j f c hc)

/-! ## Sixteen terms, from the last one down -/

/-- A sum over \`Fin 16\` is its sixteen terms added from zero in order, associated to the left: the order in which the
    body accumulates. Peeling the LAST term sixteen times gives exactly this bracketing, so nothing is commuted. -/
theorem sum_sixteen_left (g : Fin 16 → EReal) :
    ∑ c : Fin 16, g c
      = 0 + g 0 + g 1 + g 2 + g 3 + g 4 + g 5 + g 6 + g 7 + g 8 + g 9 + g 10 + g 11 + g 12 + g 13 + g 14 + g 15 := by
  simp only [Fin.sum_univ_castSucc, Fin.sum_univ_zero]
  rfl

/-! ## The payloads read at an index -/

section Payloads

/-- The identity shape casts the body opens with change nothing. -/
theorem pay2_eq (v0 : Vec Ideal S32x128x16 .f32) : k1_pay2 (F := Ideal) v0 = v0 := shapeCast_self v0 _
theorem pay3_eq (v2 : Vec Ideal S256x128x16 .f32) : k1_pay3 (F := Ideal) v2 = v2 := shapeCast_self v2 _

/-- Stages 0 to 3, from the zero array. -/
theorem pay4_apply (v0 : Vec Ideal S32x128x16 .f32) (v2 : Vec Ideal S256x128x16 .f32) (p : Fin 32) (j : Fin 256) (f : Fin 128) :
    k1_pay4 (F := Ideal) v0 v2 (ix3 p j f)
      = 0 + gap (k1_pay2 v0) (k1_pay3 v2) p j f 0 + gap (k1_pay2 v0) (k1_pay3 v2) p j f 1
          + gap (k1_pay2 v0) (k1_pay3 v2) p j f 2 + gap (k1_pay2 v0) (k1_pay3 v2) p j f 3 := by
  unfold k1_pay4
  refine (stage_apply 3 3 rfl _ _ _ _ _ _ _ _ _ _ _ p j f).trans ?_
  refine congrArg (· + _) ?_
  refine (stage_apply 2 2 rfl _ _ _ _ _ _ _ _ _ _ _ p j f).trans ?_
  refine congrArg (· + _) ?_
  refine (stage_apply 1 1 rfl _ _ _ _ _ _ _ _ _ _ _ p j f).trans ?_
  refine congrArg (· + _) ?_
  refine (stage_apply 0 0 rfl _ _ _ _ _ _ _ _ _ _ _ p j f).trans ?_
  refine congrArg (· + _) ?_
  exact Ideal.ofBits_zero_f32

/-- Slice 4 of the query block, as a \`[32, 128]\` array. -/
theorem pay5_apply (v0 : Vec Ideal S32x128x16 .f32) (p : Fin 32) (f : Fin 128) :
    k1_pay5 (F := Ideal) v0 (ix2 p f) = k1_pay2 v0 (ix3 p f 4) := by
  unfold k1_pay5
  exact query_slice_apply 4 _ _ _ p f 4 rfl

/-- Slice 4 of the key block, still of width one. -/
theorem pay6_apply (v2 : Vec Ideal S256x128x16 .f32) (j : Fin 256) (f : Fin 128) (u : Fin 1) :
    k1_pay6 (F := Ideal) v2 (ix3 j f u) = k1_pay3 v2 (ix3 j f 4) := by
  unfold k1_pay6
  exact slice3_last_apply 4 _ _ j f u 4 rfl

/-- Stage 4 on the two slices already cut, then stages 5 to 8. -/
theorem pay7_apply (v1 : FVec Ideal S32x128x16 .f32) (v3 : FVec Ideal S256x128x16 .f32) (v48 : FVec Ideal S32x256x128 .f32)
    (v50 : FVec Ideal S32x128 .f32) (v51 : FVec Ideal S256x128x1 .f32) (p : Fin 32) (j : Fin 256) (f : Fin 128) :
    k1_pay7 v1 v3 v48 v50 v51 (ix3 p j f)
      = v48 (ix3 p j f) + Cert.Spec.absE (v50 (ix2 p f) - v51 (ix3 j f (0 : Fin 1)))
          + gap v1 v3 p j f 5 + gap v1 v3 p j f 6 + gap v1 v3 p j f 7 + gap v1 v3 p j f 8 := by
  unfold k1_pay7
  refine (stage_apply 8 8 rfl _ _ _ _ _ _ _ _ _ _ _ p j f).trans ?_
  refine congrArg (· + _) ?_
  refine (stage_apply 7 7 rfl _ _ _ _ _ _ _ _ _ _ _ p j f).trans ?_
  refine congrArg (· + _) ?_
  refine (stage_apply 6 6 rfl _ _ _ _ _ _ _ _ _ _ _ p j f).trans ?_
  refine congrArg (· + _) ?_
  refine (stage_apply 5 5 rfl _ _ _ _ _ _ _ _ _ _ _ p j f).trans ?_
  refine congrArg (· + _) ?_
  exact stage_of _ _ _ _ _ _ (query_spread_apply _ _ _ p j f) (key_spread_apply _ _ _ _ p j f)

/-- The query operand of stage 9. -/
theorem pay8_apply (v1 : FVec Ideal S32x128x16 .f32) (p : Fin 32) (j : Fin 256) (f : Fin 128) :
    k1_pay8 v1 (ix3 p j f) = v1 (ix3 p f 9) := by
  unfold k1_pay8
  exact query_operand_apply 9 _ _ _ _ _ p j f 9 rfl

/-- The key operand of stage 9. -/
theorem pay9_apply (v3 : FVec Ideal S256x128x16 .f32) (p : Fin 32) (j : Fin 256) (f : Fin 128) :
    k1_pay9 v3 (ix3 p j f) = v3 (ix3 j f 9) := by
  unfold k1_pay9
  exact key_operand_apply 9 _ _ _ _ _ p j f 9 rfl

/-- Stage 9 on its two operands already spread, then stages 10 to 14. -/
theorem pay10_apply (v1 : FVec Ideal S32x128x16 .f32) (v3 : FVec Ideal S256x128x16 .f32)
    (v103 v110 v111 : FVec Ideal S32x256x128 .f32) (p : Fin 32) (j : Fin 256) (f : Fin 128) :
    k1_pay10 v1 v3 v103 v110 v111 (ix3 p j f)
      = v103 (ix3 p j f) + Cert.Spec.absE (v110 (ix3 p j f) - v111 (ix3 p j f))
          + gap v1 v3 p j f 10 + gap v1 v3 p j f 11 + gap v1 v3 p j f 12 + gap v1 v3 p j f 13 + gap v1 v3 p j f 14 := by
  unfold k1_pay10
  refine (stage_apply 14 14 rfl _ _ _ _ _ _ _ _ _ _ _ p j f).trans ?_
  refine congrArg (· + _) ?_
  refine (stage_apply 13 13 rfl _ _ _ _ _ _ _ _ _ _ _ p j f).trans ?_
  refine congrArg (· + _) ?_
  refine (stage_apply 12 12 rfl _ _ _ _ _ _ _ _ _ _ _ p j f).trans ?_
  refine congrArg (· + _) ?_
  refine (stage_apply 11 11 rfl _ _ _ _ _ _ _ _ _ _ _ p j f).trans ?_
  refine congrArg (· + _) ?_
  refine (stage_apply 10 10 rfl _ _ _ _ _ _ _ _ _ _ _ p j f).trans ?_
  refine congrArg (· + _) ?_
  exact stage_of _ _ _ _ _ _ rfl rfl

/-- Slice 15 of the query block, as a \`[32, 128]\` array. -/
theorem pay11_apply (v1 : FVec Ideal S32x128x16 .f32) (p : Fin 32) (f : Fin 128) :
    k1_pay11 v1 (ix2 p f) = v1 (ix3 p f 15) := by
  unfold k1_pay11
  exact query_slice_apply 15 _ _ _ p f 15 rfl

/-- The source index of the sum over key rows: the reduced index \`(p, f)\` with \`j\` put on the dropped axis. -/
theorem lift_key_row (p : Fin 32) (f : Fin 128) (j : Fin 256) :
    reduces_S32x256x128_S32x128.lift (ix2 p f) j = ix3 p j f := by
  funext c
  match c with
  | ⟨0, _⟩ => exact Fin.ext rfl
  | ⟨1, _⟩ => exact Fin.ext rfl
  | ⟨2, _⟩ => exact Fin.ext rfl

/-- The last stage, the exponential of minus the distance, the sum over the 256 key rows, and the literal taken off. -/
theorem pay1_apply (v3 : FVec Ideal S256x128x16 .f32) (v169 : FVec Ideal S32x256x128 .f32) (v171 : FVec Ideal S32x128 .f32)
    (p : Fin 32) (f : Fin 128) :
    k1_pay1 v3 v169 v171 (ix2 p f)
      = (∑ j : Fin 256, Ideal.exp (0 - (v169 (ix3 p j f) + Cert.Spec.absE (v171 (ix2 p f) - v3 (ix3 j f 15)))))
          - Ideal.ofBits .f32 0x3F800000#32 := by
  unfold k1_pay1
  refine congrArg (· - Ideal.ofBits .f32 0x3F800000#32) ?_
  refine (Ideal.multiReduction_add_single _ 0x00000000#32 reduces_S32x256x128_S32x128 (.inl rfl) rfl (ix2 p f)).trans ?_
  refine Finset.sum_congr rfl fun j _ => ?_
  rw [lift_key_row p f j]
  refine congrArg Ideal.exp ?_
  refine congrArg₂ (· - ·) Ideal.ofBits_zero_f32 ?_
  exact stage_of _ _ _ _ _ _ (query_spread_apply _ _ _ p j f) (key_operand_apply 15 _ _ _ _ _ p j f 15 rfl)

end Payloads

/-! ## The tile -/

/-- The running array after the first fifteen stages, read at \`(p, j, f)\`. -/
theorem fifteen_stages_apply (v0 : Vec Ideal S32x128x16 .f32) (v2 : Vec Ideal S256x128x16 .f32)
    (p : Fin 32) (j : Fin 256) (f : Fin 128) :
    k1_pay10 (F := Ideal) (k1_pay2 v0) (k1_pay3 v2)
        (k1_pay7 (k1_pay2 v0) (k1_pay3 v2) (k1_pay4 v0 v2) (k1_pay5 v0) (k1_pay6 v2))
        (k1_pay8 (k1_pay2 v0)) (k1_pay9 (k1_pay3 v2)) (ix3 p j f)
      = 0 + gap v0 v2 p j f 0 + gap v0 v2 p j f 1 + gap v0 v2 p j f 2 + gap v0 v2 p j f 3 + gap v0 v2 p j f 4
          + gap v0 v2 p j f 5 + gap v0 v2 p j f 6 + gap v0 v2 p j f 7 + gap v0 v2 p j f 8 + gap v0 v2 p j f 9
          + gap v0 v2 p j f 10 + gap v0 v2 p j f 11 + gap v0 v2 p j f 12 + gap v0 v2 p j f 13 + gap v0 v2 p j f 14 := by
  rw [pay10_apply, pay8_apply, pay9_apply, pay7_apply, pay5_apply, pay6_apply, pay4_apply, pay2_eq, pay3_eq]

theorem body1_apply (v0 : Vec Ideal S32x128x16 .f32) (v2 : Vec Ideal S256x128x16 .f32) (p : Fin 32) (f : Fin 128) :
    body1 (F := Ideal) v0 v2 (ValueIdx.ix2 p f)
      = Cert.Spec.pairwise (fun a b k => v0 (ValueIdx.ix3 a b k)) (fun a b k => v2 (ValueIdx.ix3 a b k)) p f := by
  unfold body1
  refine (pay1_apply _ _ _ p f).trans ?_
  unfold Cert.Spec.pairwise
  refine congrArg (· - Ideal.ofBits .f32 0x3F800000#32) ?_
  refine Finset.sum_congr rfl fun j _ => congrArg Ideal.exp ?_
  rw [fifteen_stages_apply, pay11_apply, pay2_eq, pay3_eq, zero_sub]
  refine congrArg Neg.neg ?_
  exact (sum_sixteen_left (fun c => gap v0 v2 p j f c)).symm

end Cert.KernelIdeal.Hand

end
-- ==== Proof.RefValue.lean ====
/-
  The reference's result, read at an index, is the specification.

  The reference multiplies `x` by `T` on the host, reshapes the product to 256 × 128 × 16 (row, feature, kernel), and
  from there on everything it does is a function `refTail` of that reshaped product `mm` alone: it lays `mm` out twice
  over a 256 × 256 × 128 × 16 grid — once constant along the first axis (entry `(a, b, f, k)` is `mm b f k`), once
  constant along the second (entry `(a, b, f, k)` is `mm a f k`) —, subtracts, takes absolute values, sums the 16
  kernels away from a zero initial value, negates, exponentiates, sums the FIRST axis away from a zero initial value,
  and subtracts the broadcast literal one. Read at `(b, f)` that is
  `Σ_a exp (−Σ_k |mm b f k − mm a f k|) − 1`: `Cert.Spec.pairwise mm mm b f`.

  At the ideal values the host's float sum over one axis is the initial value plus the `Fin`-indexed sum over that
  axis's coordinates, the zero literal is the extended real `0`, the host's absolute value is `max a (−a)`, its
  negation is `−`, and the literal one stays the bit pattern it is printed as. The host product at an index is the
  sum over the single contraction coordinate of the operands' products: `Cert.Spec.prod`.
-/
import proofs.«158119_j19593640804692_1_alg».proof.Proof.Gen.ReferenceIdeal.Run
import proofs.«158119_j19593640804692_1_alg».proof.Proof.Gen.ReferenceIdeal.Read
import proofs.«158119_j19593640804692_1_alg».proof.Proof.Spec

noncomputable section

namespace Cert.ReferenceIdeal.RefValue

open Cert.ReferenceIdeal Cert.ReferenceIdeal.Gen Idealize.ShloMosaic

/-- everything the reference does after the reshape, as a function of the reshaped product -/
def refTail (mm : (⟨S256x128x16, .f32⟩ : BufTy).Contents (Elt Ideal)) : (⟨S256x128, .f32⟩ : BufTy).Contents (Elt Ideal) :=
  subf (Host.reduceAdd (Host.exp (Host.negf (Host.reduceAdd (Host.absf (subf (broadcastInDim S256x256x128x16 ![0, 1, 2, 3] bcast_S1x256x128x16_S256x256x128x16_0_1_2_3 (broadcastInDim S1x256x128x16 ![1, 2, 3] bcast_S256x128x16_S1x256x128x16_1_2_3 mm)) (broadcastInDim S256x256x128x16 ![0, 1, 2, 3] bcast_S256x1x128x16_S256x256x128x16_0_1_2_3 (broadcastInDim S256x1x128x16 ![0, 2, 3] bcast_S256x128x16_S256x1x128x16_0_2_3 mm)))) (constant (F := Ideal) S_ .f32 0x00000000#32) reducesTo_S256x256x128x16_S256x256x128_d3 h_S_))) (constant (F := Ideal) S_ .f32 0x00000000#32) reducesTo_S256x256x128_S256x128_d0 h_S_) (broadcastInDim S256x128 ![] bcast_S_S256x128 (constant (F := Ideal) S_ .f32 0x3F800000#32))

/-- The term the reference's run states for its result is the concatenation of `x` with `refTail` of the reshaped
    host product. -/
theorem ref_result_eq (x : (⟨S256x512, .f32⟩ : BufTy).Contents (Elt Ideal)) (T : (⟨S512x2048, .f32⟩ : BufTy).Contents (Elt Ideal)) :
    concatenate S256x640 1 [⟨S256x512, x⟩, ⟨S256x128, (subf (F := Ideal) (Host.reduceAdd (Host.exp (Host.negf (Host.reduceAdd (Host.absf (subf (broadcastInDim S256x256x128x16 ![0, 1, 2, 3] bcast_S1x256x128x16_S256x256x128x16_0_1_2_3 (broadcastInDim S1x256x128x16 ![1, 2, 3] bcast_S256x128x16_S1x256x128x16_1_2_3 (shapeCast _ (Host.dotGeneral (F := Ideal) (φ₁ := .f32) (φ₂ := .f32) dot_S256x512_S512x2048_S256x2048_1_0_0_1_n_n none x T) shapeCasts_S256x2048_S256x128x16))) (broadcastInDim S256x256x128x16 ![0, 1, 2, 3] bcast_S256x1x128x16_S256x256x128x16_0_1_2_3 (broadcastInDim S256x1x128x16 ![0, 2, 3] bcast_S256x128x16_S256x1x128x16_0_2_3 (shapeCast _ (Host.dotGeneral (F := Ideal) (φ₁ := .f32) (φ₂ := .f32) dot_S256x512_S512x2048_S256x2048_1_0_0_1_n_n none x T) shapeCasts_S256x2048_S256x128x16))))) (constant S_ .f32 0x00000000#32) reducesTo_S256x256x128x16_S256x256x128_d3 h_S_))) (constant S_ .f32 0x00000000#32) reducesTo_S256x256x128_S256x128_d0 h_S_) (broadcastInDim S256x128 ![] bcast_S_S256x128 (constant S_ .f32 0x3F800000#32)))⟩] concatenates_S256x512_S256x128_S256x640_d1
      = concatenate S256x640 1 [⟨S256x512, x⟩, ⟨S256x128, refTail (shapeCast _ (Host.dotGeneral (F := Ideal) (φ₁ := .f32) (φ₂ := .f32) dot_S256x512_S512x2048_S256x2048_1_0_0_1_n_n none x T) shapeCasts_S256x2048_S256x128x16)⟩] concatenates_S256x512_S256x128_S256x640_d1 := rfl

/-! ## The stages of `refTail` at an index -/

/-- The host's sum over the last of four axes, from the zero literal: the sum over the 16 last coordinates. -/
private theorem sumLast_apply (y : (⟨S256x256x128x16, .f32⟩ : BufTy).Contents (Elt Ideal)) (a b : Fin 256) (f : Fin 128) :
    Host.reduceAdd y (constant (F := Ideal) S_ .f32 0x00000000#32) reducesTo_S256x256x128x16_S256x256x128_d3 h_S_ (ValueIdx.ix3 a b f)
      = ∑ k : Fin 16, y (ValueIdx.ix4 a b f k) := by
  simp only [Host.reduceAdd, Ideal.hostReduceAdd_def]
  rw [Ideal.hostReduceAdd_single reducesTo_S256x256x128x16_S256x256x128_d3 (by decide), ValueIdx.constant_apply,
    Ideal.ofBits_zero_f32, zero_add]
  refine Finset.sum_congr rfl fun k _ => ?_
  exact congrArg y (funext fun d => Fin.ext (by match d with | ⟨0, _⟩ => rfl | ⟨1, _⟩ => rfl | ⟨2, _⟩ => rfl | ⟨3, _⟩ => rfl))

/-- The host's sum over the first of three axes, from the zero literal: the sum over the 256 first coordinates. -/
private theorem sumFirst_apply (z : (⟨S256x256x128, .f32⟩ : BufTy).Contents (Elt Ideal)) (b : Fin 256) (f : Fin 128) :
    Host.reduceAdd z (constant (F := Ideal) S_ .f32 0x00000000#32) reducesTo_S256x256x128_S256x128_d0 h_S_ (ValueIdx.ix2 b f)
      = ∑ a : Fin 256, z (ValueIdx.ix3 a b f) := by
  simp only [Host.reduceAdd, Ideal.hostReduceAdd_def]
  rw [Ideal.hostReduceAdd_single reducesTo_S256x256x128_S256x128_d0 (by decide), ValueIdx.constant_apply,
    Ideal.ofBits_zero_f32, zero_add]
  refine Finset.sum_congr rfl fun a _ => ?_
  exact congrArg z (funext fun d => Fin.ext (by match d with | ⟨0, _⟩ => rfl | ⟨1, _⟩ => rfl | ⟨2, _⟩ => rfl))

/-- The two layouts of `mm` over the 256 × 256 × 128 × 16 grid, subtracted: at `(a, b, f, k)` the first reads row `b`,
    the second row `a`. -/
private theorem diff_apply (mm : (⟨S256x128x16, .f32⟩ : BufTy).Contents (Elt Ideal)) (a b : Fin 256) (f : Fin 128) (k : Fin 16) :
    subf (F := Ideal) (s := S256x256x128x16) (φ := .f32) (broadcastInDim S256x256x128x16 ![0, 1, 2, 3] bcast_S1x256x128x16_S256x256x128x16_0_1_2_3 (broadcastInDim S1x256x128x16 ![1, 2, 3] bcast_S256x128x16_S1x256x128x16_1_2_3 mm)) (broadcastInDim S256x256x128x16 ![0, 1, 2, 3] bcast_S256x1x128x16_S256x256x128x16_0_1_2_3 (broadcastInDim S256x1x128x16 ![0, 2, 3] bcast_S256x128x16_S256x1x128x16_0_2_3 mm)) (ValueIdx.ix4 a b f k)
      = mm (ValueIdx.ix3 b f k) - mm (ValueIdx.ix3 a f k) := by
  have e1 : broadcastInDim S256x256x128x16 ![0, 1, 2, 3] bcast_S1x256x128x16_S256x256x128x16_0_1_2_3 (broadcastInDim S1x256x128x16 ![1, 2, 3] bcast_S256x128x16_S1x256x128x16_1_2_3 mm) (ValueIdx.ix4 a b f k) = mm (ValueIdx.ix3 b f k) :=
    (broadcastInDim_apply _ bcast_S1x256x128x16_S256x256x128x16_0_1_2_3 _ (ValueIdx.ix4 a b f k) (ValueIdx.ix4 (0 : Fin 1) b f k)
      (fun d => match d with | ⟨0, _⟩ => rfl | ⟨1, _⟩ => rfl | ⟨2, _⟩ => rfl | ⟨3, _⟩ => rfl)).trans
    (broadcastInDim_apply _ bcast_S256x128x16_S1x256x128x16_1_2_3 mm (ValueIdx.ix4 (0 : Fin 1) b f k) (ValueIdx.ix3 b f k)
      (fun d => match d with | ⟨0, _⟩ => rfl | ⟨1, _⟩ => rfl | ⟨2, _⟩ => rfl))
  have e2 : broadcastInDim S256x256x128x16 ![0, 1, 2, 3] bcast_S256x1x128x16_S256x256x128x16_0_1_2_3 (broadcastInDim S256x1x128x16 ![0, 2, 3] bcast_S256x128x16_S256x1x128x16_0_2_3 mm) (ValueIdx.ix4 a b f k) = mm (ValueIdx.ix3 a f k) :=
    (broadcastInDim_apply _ bcast_S256x1x128x16_S256x256x128x16_0_1_2_3 _ (ValueIdx.ix4 a b f k) (ValueIdx.ix4 a (0 : Fin 1) f k)
      (fun d => match d with | ⟨0, _⟩ => rfl | ⟨1, _⟩ => rfl | ⟨2, _⟩ => rfl | ⟨3, _⟩ => rfl)).trans
    (broadcastInDim_apply _ bcast_S256x128x16_S256x1x128x16_0_2_3 mm (ValueIdx.ix4 a (0 : Fin 1) f k) (ValueIdx.ix3 a f k)
      (fun d => match d with | ⟨0, _⟩ => rfl | ⟨1, _⟩ => rfl | ⟨2, _⟩ => rfl))
  rw [ValueIdx.subf_apply, e1, e2]

/-- Exponential of the negation, elementwise. -/
private theorem expNeg_apply {s : Shape} (z : FVec Ideal s .f32) (i : s.Idx) :
    Host.exp (Host.negf z) i = Ideal.exp (-(z i)) := rfl

/-- The host's absolute value, elementwise: the larger of the value and its negation. -/
private theorem abs_apply {s : Shape} (z : FVec Ideal s .f32) (i : s.Idx) :
    Host.absf z i = max (z i) (-(z i)) := rfl

/-- The literal one, broadcast: its bit pattern's value everywhere. -/
private theorem one_apply (i : S256x128.Idx) :
    broadcastInDim S256x128 ![] bcast_S_S256x128 (constant (F := Ideal) S_ .f32 0x3F800000#32) i = Ideal.ofBits .f32 0x3F800000#32 := rfl

/-! ## The two facts the certificate reads the reference by -/

theorem refTail_apply (mm : (⟨S256x128x16, .f32⟩ : BufTy).Contents (Elt Ideal)) (b : Fin 256) (f : Fin 128) :
    refTail mm (ValueIdx.ix2 b f) = Cert.Spec.pairwise (fun a b k => mm (ValueIdx.ix3 a b k)) (fun a b k => mm (ValueIdx.ix3 a b k)) b f := by
  unfold refTail Cert.Spec.pairwise Cert.Spec.dist Cert.Spec.absE
  rw [ValueIdx.subf_apply, one_apply, sumFirst_apply]
  refine congrArg (· - Ideal.ofBits .f32 0x3F800000#32) (Finset.sum_congr rfl fun j _ => ?_)
  rw [expNeg_apply, sumLast_apply]
  refine congrArg (fun s => Ideal.exp (-s)) (Finset.sum_congr rfl fun k _ => ?_)
  rw [abs_apply, diff_apply]

theorem refProd_apply (x : (⟨S256x512, .f32⟩ : BufTy).Contents (Elt Ideal)) (T : (⟨S512x2048, .f32⟩ : BufTy).Contents (Elt Ideal)) (i : Fin 256) (cc : Fin 2048) :
    Host.dotGeneral (F := Ideal) (φ₁ := .f32) (φ₂ := .f32) dot_S256x512_S512x2048_S256x2048_1_0_0_1_n_n none x T (ValueIdx.ix2 i cc)
      = Cert.Spec.prod (fun a b => x (ValueIdx.ix2 a b)) (fun a b => T (ValueIdx.ix2 a b)) i cc := by
  have h := Cert.ReferenceIdeal.Read.val_main_v0_apply x T (ValueIdx.ix2 i cc)
  unfold Cert.ReferenceIdeal.Read.val_main_v0 at h
  rw [h]
  unfold Cert.Spec.prod
  refine Finset.sum_congr rfl fun k _ => ?_
  have el : Cert.ReferenceIdeal.Read.lidx_main_v0 (ValueIdx.ix2 i cc) k = ValueIdx.ix2 i k :=
    funext fun d => Fin.ext (by match d with | ⟨0, _⟩ => rfl | ⟨1, _⟩ => rfl)
  have er : Cert.ReferenceIdeal.Read.ridx_main_v0 (ValueIdx.ix2 i cc) k = ValueIdx.ix2 k cc :=
    funext fun d => Fin.ext (by match d with | ⟨0, _⟩ => rfl | ⟨1, _⟩ => rfl)
  rw [el, er]

end Cert.ReferenceIdeal.RefValue

end
-- ==== Proof.IdealFinal.lean ====
/-
  The idealized kernel program's result as ONE term of the two argument arrays, and its equality with the reference's.

  Reading the valuations back: the result buffer is `x` joined with call 1's output; call 1's output is
  `Σ_j exp (−Σ_k |m3 r f k − m3 j f k|) − 1` of the reshaped output of call 0; call 0's output is the product payload of the
  two arguments after the format change, which on the extended reals changes nothing. The reference computes the
  product by a `dot_general` and the pairwise stage by broadcasts and two sums. Entry by entry both products are
  `Σ_k x i k · T k c`, and for ANY 256 × 128 × 16 array the two pairwise stages are the same function of it; the
  reshape and the final join are the same operations on both sides.
-/
import proofs.«158119_j19593640804692_1_alg».proof.Proof.IdealRun
import proofs.«158119_j19593640804692_1_alg».proof.Proof.IdealHost
import proofs.«158119_j19593640804692_1_alg».proof.Proof.IdealValue0
import proofs.«158119_j19593640804692_1_alg».proof.Proof.IdealValue1
import proofs.«158119_j19593640804692_1_alg».proof.Proof.IdealPay0
import proofs.«158119_j19593640804692_1_alg».proof.Proof.IdealPay1
import proofs.«158119_j19593640804692_1_alg».proof.Proof.RefValue

set_option maxRecDepth 16384

noncomputable section

namespace Cert.KernelIdeal.Hand

open Idealize.ShloMosaic Idealize.ShloMosaic.TcCoe
open Idealize.SL Idealize.SL.Sem
open Cert.KernelIdeal Cert.KernelIdeal.Gen

/-- An argument changed to the narrower float format (on the extended reals: unchanged). -/
abbrev nx (x : (⟨S256x512, .f32⟩ : BufTy).Contents (Elt Ideal)) : FVec Ideal S256x512 .bf16 :=
  truncf (F := Ideal) .bf16 (x : FVec Ideal S256x512 .f32) bitsLt_bf16_f32
abbrev nT (T : (⟨S512x2048, .f32⟩ : BufTy).Contents (Elt Ideal)) : FVec Ideal S512x2048 .bf16 :=
  truncf (F := Ideal) .bf16 (T : FVec Ideal S512x2048 .f32) bitsLt_bf16_f32

/-- The kernel program's result as a function of its two arguments. -/
def kres (x : (⟨S256x512, .f32⟩ : BufTy).Contents (Elt Ideal)) (T : (⟨S512x2048, .f32⟩ : BufTy).Contents (Elt Ideal)) :
    (⟨S256x640, .f32⟩ : BufTy).Contents (Elt Ideal) :=
  concatenate S256x640 1 [⟨S256x512, x⟩,
    ⟨S256x128, G4 (shapeCast S256x128x16
      (k0_pay1 (F := Ideal) (nx x) (nT T)) shapeCasts_S256x2048_S256x128x16)⟩]
    concatenates_S256x512_S256x128_S256x640_d1

variable (m : (ℓ : Loc nD τ sig) → Buf (Elt Ideal) ℓ)

/-- What call 0 leaves: the product payload of the two narrowed arguments. -/
theorem o2_value (c : Dev nD) :
    (o2 m c : (⟨S256x2048, .f32⟩ : BufTy).Contents (Elt Ideal))
      = k0_pay1 (F := Ideal) (nx (m ((c : Thread nD τ).loc main_arg0)))
          (nT (m ((c : Thread nD τ).loc main_arg1))) := by
  unfold o2
  rw [final0 (E1 m) c, E1_main_v0, E1_main_v1]

/-- What call 1 leaves: the pairwise stage of the reshaped product. -/
theorem o4_value (c : Dev nD) :
    (o4 m c : (⟨S256x128, .f32⟩ : BufTy).Contents (Elt Ideal))
      = G4 (shapeCast S256x128x16
          (k0_pay1 (F := Ideal) (nx (m ((c : Thread nD τ).loc main_arg0)))
            (nT (m ((c : Thread nD τ).loc main_arg1))))
          shapeCasts_S256x2048_S256x128x16) := by
  unfold o4
  rw [final1 (E3 m) body1_apply c, E3_main_v3, o2_value]

/-- The result buffer at the end of the run. -/
theorem V5_value (c : Dev nD) :
    (Gen.V5 m (outs m) c main_v5 : (⟨S256x640, .f32⟩ : BufTy).Contents (Elt Ideal))
      = kres (m ((c : Thread nD τ).loc main_arg0)) (m ((c : Thread nD τ).loc main_arg1)) := by
  rw [V5_main_v5, o4_value]; rfl

/-- Entry by entry the kernel's product (of the narrowed arguments, into a zero accumulator) is the reference's. -/
theorem prod_eq (x : (⟨S256x512, .f32⟩ : BufTy).Contents (Elt Ideal)) (T : (⟨S512x2048, .f32⟩ : BufTy).Contents (Elt Ideal)) :
    k0_pay1 (F := Ideal) (nx x) (nT T)
      = Host.dotGeneral (F := Ideal) (φ₁ := .f32) (φ₂ := .f32) Cert.ReferenceIdeal.dot_S256x512_S512x2048_S256x2048_1_0_0_1_n_n none x T := by
  funext y
  obtain ⟨i, cc, rfl⟩ : ∃ (i : Fin 256) (cc : Fin 2048), y = ValueIdx.ix2 i cc := ⟨y 0, y 1, ValueIdx.eq_ix2 y⟩
  rw [k0_pay1_apply, Cert.ReferenceIdeal.RefValue.refProd_apply]
  rfl

/-- For any 256 × 128 × 16 array the kernel's pairwise stage is the reference's. -/
theorem tail_eq (M : (⟨S256x128x16, .f32⟩ : BufTy).Contents (Elt Ideal)) : G4 M = Cert.ReferenceIdeal.RefValue.refTail M := by
  funext y
  obtain ⟨b, f, rfl⟩ : ∃ (b : Fin 256) (f : Fin 128), y = ValueIdx.ix2 b f := ⟨y 0, y 1, ValueIdx.eq_ix2 y⟩
  rw [Cert.ReferenceIdeal.RefValue.refTail_apply]
  rfl

/-- The kernel program's result term is the reference's. -/
theorem kres_eq_ref (x : (⟨S256x512, .f32⟩ : BufTy).Contents (Elt Ideal)) (T : (⟨S512x2048, .f32⟩ : BufTy).Contents (Elt Ideal)) :
    kres x T = concatenate Cert.ReferenceIdeal.S256x640 1 [⟨Cert.ReferenceIdeal.S256x512, x⟩,
      ⟨Cert.ReferenceIdeal.S256x128, Cert.ReferenceIdeal.RefValue.refTail (shapeCast _
        (Host.dotGeneral (F := Ideal) (φ₁ := .f32) (φ₂ := .f32) Cert.ReferenceIdeal.dot_S256x512_S512x2048_S256x2048_1_0_0_1_n_n none x T)
        Cert.ReferenceIdeal.Gen.shapeCasts_S256x2048_S256x128x16)⟩]
      Cert.ReferenceIdeal.Gen.concatenates_S256x512_S256x128_S256x640_d1 := by
  unfold kres
  rw [prod_eq, tail_eq]

end Cert.KernelIdeal.Hand

end
-- ==== Proof.lean ====
/-
  The certificate of the pairwise-distance kernel against its jnp reference.

  Both programs compute, from `x : 256 × 512` and `T : 512 × 2048`, the matrix `m = x · T` read as `256 × 128 × 16`, then
  `out r f = Σ_j exp (−Σ_k |m r f k − m j f k|) − 1`, and return `x` joined with `out`. The kernel does the product in one
  pallas_call on narrowed (bf16) copies of the arguments, into a zero accumulator, and the pairwise stage in a second
  one, 32 query rows per grid point against all 256 key rows, the sixteen terms of the inner sum added one after the
  other from zero; the reference uses a `dot_general`, two broadcasts and two reductions. On the extended reals a change
  of float format is the identity, a product into a zero accumulator and a `dot_general` are the same finite sum, and the
  left-nested sum of sixteen terms from zero is their sum; the subtraction inside the absolute value has the same
  orientation in both programs, so no symmetry of the distance is used, and no law that needs finiteness: the
  precondition is never opened.

  The three frames: the two kernel programs run under the several-regions launch (each call a region between host
  stretches; the second call's two input windows read one array, whose share is split between them at entry and
  joined at exit); the reference is a host program, and its frame is its run with the result dropped. The idealization
  rewrote nothing, so `preserves` is trivial.
-/
import proofs.«158119_j19593640804692_1_alg».proof.Defs
import proofs.«158119_j19593640804692_1_alg».proof.Proof.Gen.Kernel
import proofs.«158119_j19593640804692_1_alg».proof.Proof.Gen.KernelIdeal
import proofs.«158119_j19593640804692_1_alg».proof.Proof.Gen.ReferenceIdeal
import proofs.«158119_j19593640804692_1_alg».proof.Proof.Gen.Pre_finite_inputs
import proofs.«158119_j19593640804692_1_alg».proof.Proof.Gen.ReferenceIdeal.Run
import proofs.«158119_j19593640804692_1_alg».proof.Proof.BitsFrame
import proofs.«158119_j19593640804692_1_alg».proof.Proof.BitsBody0
import proofs.«158119_j19593640804692_1_alg».proof.Proof.BitsBody1
import proofs.«158119_j19593640804692_1_alg».proof.Proof.IdealBody0
import proofs.«158119_j19593640804692_1_alg».proof.Proof.IdealBody1
import proofs.«158119_j19593640804692_1_alg».proof.Proof.IdealFinal
import Idealize.ShloMosaic.Adequacy
import Idealize.ShloMosaic.Init

noncomputable section

namespace Cert.Proof

open Idealize.ShloMosaic Idealize.ShloMosaic.TcCoe Idealize.SL.Sem

/-- The printed program runs, faults nowhere and leaves both arguments as launched. -/
theorem frame_k : Cert.frame_Kernel := fun m ρ _ =>
  Cert.Kernel.Hand.frame m ρ (fun c => Cert.Kernel.Hand.body_obligation0 _ c) (fun c => Cert.Kernel.Hand.body_obligation1 _ c)

/-- So does its idealization. -/
theorem frame_ki : Cert.frame_KernelIdeal := fun m ρ _ =>
  Cert.KernelIdeal.Hand.frame m ρ (fun c => Cert.KernelIdeal.Hand.body_obligation0 _ c) (fun c => Cert.KernelIdeal.Hand.body_obligation1 _ c)

/-- The reference is host operations only: its frame is its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- An unscoped TensorCore reference is among the buffers the last thread state holds. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- From memories that agree on `x` and `T` both idealized programs end with the same result: the kernel's result
    buffer read off its last valuation is the term `kres x T`, the reference's run ends at its composed term, and the
    two terms are equal. -/
theorem algebraic : Cert.algebraic_KernelIdeal_ReferenceIdeal := by
  intro m ρ m' ρ' _ hagree
  refine ⟨fun c => Cert.KernelIdeal.Hand.kres
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩)
      (Cert.KernelIdeal.Hand.run_all m ρ (fun c => Cert.KernelIdeal.Hand.body_obligation0 _ c) (fun c => Cert.KernelIdeal.Hand.body_obligation1 _ c))
    · exact (h c _ (mem_uc Cert.KernelIdeal.main_v5 (by decide))).trans (Cert.KernelIdeal.Hand.V5_value m c)
    · exact (h c _ (mem_uc Cert.KernelIdeal.main_arg0 (by decide))).trans (Cert.KernelIdeal.Gen.V5_main_arg0 m (Cert.KernelIdeal.Hand.outs m) c)
    · exact (h c _ (mem_uc Cert.KernelIdeal.main_arg1 (by decide))).trans (Cert.KernelIdeal.Gen.V5_main_arg1 m (Cert.KernelIdeal.Hand.outs m) c)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.ReferenceIdeal.RefValue.ref_result_eq _ _).trans (Cert.KernelIdeal.Hand.kres_eq_ref _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
